-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S16384 : Shape := ⟨1, ![16384]⟩
abbrev S16384x512 : Shape := ⟨2, ![16384, 512]⟩
abbrev S256x512 : Shape := ⟨2, ![256, 512]⟩
abbrev S256 : Shape := ⟨1, ![256]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384 : S_.BroadcastsInDim S16384 (![] : Fin 0 → Fin S16384.rank)
  reducesTo_S16384_S_d0 : S16384.ReducesTo [0] S_
  bcast_S_S16384x512 : S_.BroadcastsInDim S16384x512 (![] : Fin 0 → Fin S16384x512.rank)
  reducesTo_S16384x512_S_d0_1 : S16384x512.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S16384x16384 .f32) (main_arg1 : FVec F S16384 .f32) (main_arg2 : FVec F S16384x512 .f32) (main_arg3 : FVec F S256x512 .f32) (main_arg4 : FVec F S256 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384 .f32 := Host.absf main_arg1
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_v13 main_v16
-- ==== Kernel.lean ====
abbrev S16384x16384 : Shape := ⟨2, ![16384, 16384]⟩
abbrev S16384 : Shape := ⟨1, ![16384]⟩
abbrev S16384x512 : Shape := ⟨2, ![16384, 512]⟩
abbrev S256x512 : Shape := ⟨2, ![256, 512]⟩
abbrev S256 : Shape := ⟨1, ![256]⟩
abbrev S16384x1 : Shape := ⟨2, ![16384, 1]⟩
abbrev S1x256 : Shape := ⟨2, ![1, 256]⟩
abbrev S512x256 : Shape := ⟨2, ![512, 256]⟩
abbrev S16384x256 : Shape := ⟨2, ![16384, 256]⟩
abbrev S1024x1024 : Shape := ⟨2, ![1024, 1024]⟩
abbrev S1024x512 : Shape := ⟨2, ![1024, 512]⟩
abbrev S1024x1 : Shape := ⟨2, ![1024, 1]⟩
abbrev S1024x256 : Shape := ⟨2, ![1024, 256]⟩

abbrev nBuf : Space → Nat
  | .hbm => 9
  | .vmem => 15
  | .smem => 0
  | _ => 0

abbrev bufTy : (tb : Table) → Fin (tcTables nBuf tb) → BufTy
  | .hbm, ⟨0, _⟩ => ⟨S16384x16384, .f32⟩
  | .hbm, ⟨1, _⟩ => ⟨S16384, .f32⟩
  | .hbm, ⟨2, _⟩ => ⟨S16384x512, .f32⟩
  | .hbm, ⟨3, _⟩ => ⟨S256x512, .f32⟩
  | .hbm, ⟨4, _⟩ => ⟨S256, .f32⟩
  | .hbm, ⟨5, _⟩ => ⟨S16384x1, .f32⟩
  | .hbm, ⟨6, _⟩ => ⟨S1x256, .f32⟩
  | .hbm, ⟨7, _⟩ => ⟨S512x256, .f32⟩
  | .hbm, ⟨8, _⟩ => ⟨S16384x256, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x1, .f32⟩
  | .local _ .vmem, ⟨5, _⟩ => ⟨S1024x1, .f32⟩
  | .local _ .vmem, ⟨6, _⟩ => ⟨S1024x512, .f32⟩
  | .local _ .vmem, ⟨7, _⟩ => ⟨S1024x512, .f32⟩
  | .local _ .vmem, ⟨8, _⟩ => ⟨S1024x1, .f32⟩
  | .local _ .vmem, ⟨9, _⟩ => ⟨S1024x1, .f32⟩
  | .local _ .vmem, ⟨10, _⟩ => ⟨S512x256, .f32⟩
  | .local _ .vmem, ⟨11, _⟩ => ⟨S1x256, .f32⟩
  | .local _ .vmem, ⟨12, _⟩ => ⟨S1024x256, .f32⟩
  | .local _ .vmem, ⟨13, _⟩ => ⟨S1024x256, .f32⟩
  | .local _ .vmem, ⟨14, _⟩ => ⟨S1024x512, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v17 : BitVec 1 := Scalar.cmpi .eq arg1 c15_i32
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S16384_S16384x1 : S16384.ShapeCasts S16384x1
  shapeCasts_S256_S1x256 : S256.ShapeCasts S1x256
  transposes_S256x512_S512x256_1_0 : S256x512.Transposes [1, 0] S512x256
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  dot_S1024x1024_S1024x512_S1024x512_1_0_0_1_n_n_wf : DotDims.WF S1024x1024 S1024x512 S1024x512 [1] [0] [0] [1] [] []
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x16384.size a
  hwx0_0 : ∀ i : grid0.Coords, EltTy.bits .f32 = 32 ∨ (Rect.block (s := S16384x16384) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S16384x512.size a
  hwx0_3 : ∀ i : grid0.Coords, EltTy.bits .f32 = 32 ∨ (Rect.block (s := S16384x512) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S16384x1.size a
  hwx0_4 : ∀ i : grid0.Coords, EltTy.bits .f32 = 32 ∨ (Rect.block (s := S16384x1) S1024x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .f32 = 32 ∨ (Rect.block (s := S512x256) S512x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S16384x256.size a
  hwx0_7 : ∀ i : grid0.Coords, EltTy.bits .f32 = 32 ∨ (Rect.block (s := S16384x256) S1024x256.size (cc0_transform_7 i) (hinb0_7 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S16384x16384 : Shape := ⟨2, ![16384, 16384]⟩
abbrev S16384 : Shape := ⟨1, ![16384]⟩
abbrev S16384x512 : Shape := ⟨2, ![16384, 512]⟩
abbrev S256x512 : Shape := ⟨2, ![256, 512]⟩
abbrev S256 : Shape := ⟨1, ![256]⟩
abbrev S16384x1 : Shape := ⟨2, ![16384, 1]⟩
abbrev S512x256 : Shape := ⟨2, ![512, 256]⟩
abbrev S16384x256 : Shape := ⟨2, ![16384, 256]⟩
abbrev S1x256 : Shape := ⟨2, ![1, 256]⟩

abbrev nBuf : Space → Nat
  | .hbm => 18
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384, .f32⟩
  | .hbm, ⟨2, _⟩ => ⟨S16384x512, .f32⟩
  | .hbm, ⟨3, _⟩ => ⟨S256x512, .f32⟩
  | .hbm, ⟨4, _⟩ => ⟨S256, .f32⟩
  | .hbm, ⟨5, _⟩ => ⟨S16384x1, .f32⟩
  | .hbm, ⟨6, _⟩ => ⟨S16384x512, .f32⟩
  | .hbm, ⟨7, _⟩ => ⟨S16384x512, .f32⟩
  | .hbm, ⟨8, _⟩ => ⟨S16384x1, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S512x256, .f32⟩
  | .hbm, ⟨14, _⟩ => ⟨S16384x256, .f32⟩
  | .hbm, ⟨15, _⟩ => ⟨S1x256, .f32⟩
  | .hbm, ⟨16, _⟩ => ⟨S16384x256, .f32⟩
  | .hbm, ⟨17, _⟩ => ⟨S16384x256, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384x1_S16384x512_0_1 : S16384x1.BroadcastsInDim S16384x512 (![0, 1] : Fin 2 → Fin S16384x512.rank)
  transposes_S256x512_S512x256_1_0 : S256x512.Transposes [1, 0] S512x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  dot_S16384x16384_S16384x512_S16384x512_1_0_0_1_n_n_wf : DotDims.WF S16384x16384 S16384x512 S16384x512 [1] [0] [0] [1] [] []
  dot_S16384x512_S512x256_S16384x256_1_0_0_1_n_n_wf : DotDims.WF S16384x512 S512x256 S16384x256 [1] [0] [0] [1] [] []

variable [Facts₀]

def dot_S16384x16384_S16384x512_S16384x512_1_0_0_1_n_n : DotDims S16384x16384 S16384x512 S16384x512 where
  lhsContracting := [1]
  rhsContracting := [0]
  lhsNonContracting := [0]
  rhsNonContracting := [1]
  lhsBatch := []
  rhsBatch := []
  wf := dot_S16384x16384_S16384x512_S16384x512_1_0_0_1_n_n_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf

class Facts : Prop extends Facts₀ where

variable [Facts]
-- ==== Proof.LibSharedLaunch.lean ====
import Idealize.ShloMosaic.Lib.Pipeline.Frame

noncomputable section

/-! # The frame run of a one-region pipeline whose windows may share an array

A kernel handed one array through several input windows holds that array once, and the windows on it hold it
at shares that compose to the whole. The run below is the one-region frame run with the arrays' distinctness
replaced by the certificate's own account of how the buffers behind the arrays, each whole at its contents on
entering the region, are dealt among the windows (`hsplit`). The region's invariant is entered from, and
returned to, the core's scoped buffers that are no staging buffer. The conclusion is the frame run's usual post:
every window's array at what the write-backs leave, every other unscoped buffer as the region found it. -/

namespace Idealize.ShloMosaic.Pipeline

open Idealize.SL
open Idealize.SL.BI (sProp bigSep)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}
variable {Λ₀ : SL.Sem.Labels} {P : Type} [Fintype P] [DecidableEq P] [∀ e, Nonempty (Val e)]

/-- THE FRAME RUN of a one-region pipeline whose windows may share an array. The layout facts are taken by name: the
    staging cells are pairwise distinct (`hinj`), the windows' layout facts hold with the arrays not required
    distinct (`hw`), every block is nonempty (`hne`), every array and every staging buffer is a whole buffer
    (`harr`, `hstage`). `hbody` is the body obligation at every point and `howed` says the data owe nothing;
    `hmain` is the program's shape up to the region, with the unscoped buffers' contents `V` there. In place of
    every array held whole by its one window, `hsplit` says how the distinct buffers behind the arrays, each whole at
    `V` on entry, make the proof data's arrays at point 0 (an array read through several windows dealt among them by
    shares). The data's invariant `Φ` is entered from the core's scoped buffers that are no staging buffer (`hin`)
    and yields them back after the last point (`hout`); no generator register is asked for or returned.
    Conclusion: at the launch memory `m` with zero counters, every weakly fair execution of the program on the
    TensorCores terminates, and every final state satisfies `FramePost`: each window's array holds
    `arrAt w N` (windows on one array agree), and every unscoped buffer that is no window's array holds what it held
    at the region's entry. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp (MT nD τ sig Unit Val ℕ (UR sig nD τ) ℕ))
      ⊢ (dats p c).arrays ((dats p c).arrAt · 0))
    (hin : ∀ c, (scopedRest (cfgs p).spec c : sProp (MT nD τ sig Unit Val ℕ (UR sig nD τ) ℕ)) ⊢ (dats p c).Φ 0)
    (hout : ∀ c, (dats p c).Φ (Fin.last (cfgs p).N) ⊢ (scopedRest (cfgs p).spec c : sProp (MT nD τ sig Unit Val ℕ (UR sig nD τ) ℕ))) :
    θ_run (Pipeline.defs (fun q => Cfg.toPCfg (Val := Val) (cfgs q)) defs₀) (onTc main) (s₀ m g) (FramePost cfgs dats p V) := by
  classical
  exact θ_run_region_noSem_shared (Ix := Unit) (Name := ℕ) (U := UR sig nD τ) (Lvl := ℕ) cfgs dats () hinj p hw emb₁ defs₀ 𝒱₀ m g main
    hbody hne harr hstage howed
    (Rounds.initOf (cells cfgs hinj) (launchToks cfgs hinj)) .rfl V hmain hsplit
    (fun _ => iprop(emp)) (fun _ => iprop(emp))
    (fun c => unscopedRest (Ix := Unit) (Name := ℕ) (U := UR sig nD τ) (Lvl := ℕ) (cfgs p).spec c (V c))
    (fun c => by
      iintro HU
      isplitr
      · iempintro
      · iexact HU)
    (fun c => (show _ ⊢ (scopedRest (cfgs p).spec c : sProp (MT nD τ sig Unit Val ℕ (UR sig nD τ) ℕ)) from by
      iintro ⟨-, HR⟩; iexact HR).trans (hin c))
    (fun c => (hout c).trans (by
      iintro HR
      isplitr
      · iempintro
      · iexact HR))
    (fun c s => ∀ b ∈ restRefs sig (cfgs p).spec, s.mem ((c.tc : Thread nD τ).loc b) = V c b)
    (fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (fun s h c => ⟨(h c).1, (h c).2⟩)

end Idealize.ShloMosaic.Pipeline

end
-- ==== Proof.K.Base.lean ====
/-
  What the region is entered with, and the vocabulary the body's runs and the proof data are stated over.

  @main applies three layout operations (the scale vector as a column, the bias as a row, the weight transposed) and
  then launches the one region on a 16 × 16 grid: point t is row tile t / 16, column block t % 16. The accumulator is
  reset where t % 16 = 0 and the output tile is computed and written back where t % 16 = 15; everywhere else the
  output window is idle. Two of the windows read the feature array and two read the scale column: each pair holds its
  array at two shares that make the whole.
-/
import proofs.«166288_j34239479283727_1_alg».proof.Proof.Gen.Kernel.Launch
import proofs.«166288_j34239479283727_1_alg».proof.Proof.Gen.Kernel.Skeleton
import proofs.«166288_j34239479283727_1_alg».proof.Proof.Gen.Kernel.Points
import proofs.«166288_j34239479283727_1_alg».proof.Proof.LibSharedLaunch
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffer contents when the region is entered: the launch contents after the three layout operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the layout operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The first column block: the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The last column block: the output tile is computed. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Where the output tile is not computed the output window is idle and is not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
/-- Where it is computed the window is live. -/
theorem liveAt0_7 : ∀ t : Fin cfg0.N, cond0_1 (grid0.coords t) → cfg0.idle 7 (grid0.coords t) = false := by decide +kernel

/-! ## The memrefs the body is called with -/

/-- One staging buffer of the output window, through which its contents are stated. -/
abbrev VO0_7 : View sig .tc .vmem S1024x256 .f32 := (Memref.whole cc0_stg7_0 : Memref sig .tc .vmem S1024x256 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x256 .f32 := win0_7.stage (cfg0.slots t 7)
abbrev hs0_7 (t : Fin cfg0.N) : (ms0_7 t).IsWhole := hstage0_7 ((cfg0.slots t 7).cast nbuf0_7)
/-- The accumulator: a whole scoped buffer of the kernel's own, carried from point to point. -/
abbrev scM0_0 : Memref sig .tc .vmem S1024x512 .f32 := Memref.whole cc0_scratch0
abbrev VS0_0 : View sig .tc .vmem S1024x512 .f32 := scM0_0.view

/-- The core's scoped buffers that are no staging buffer are the accumulator alone, owned at some contents. -/
theorem scopedRest0_owns (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.Kernel.Fr

end
-- ==== Proof.K.RunB.lean ====
/-
  The body at a point that is neither the first nor the last column block of its row tile: it loads the scale block, the
  feature block, the adjacency block and the accumulator, and stores the accumulator plus the block's product back.
  The output window is not touched.
-/
import proofs.«166288_j34239479283727_1_alg».proof.Proof.K.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's one store leaves in the accumulator, with the proof that on whole memrefs — the inputs at their
    contents, the output window at contents handed back untouched, the accumulator at what the point before left — the
    body runs to the continuation. -/
noncomputable def kernelRun0_B (c : Dev nD) (i : grid0.Coords) (arg2 : Memref sig .tc .vmem S1024x1024 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .f32) (harg5 : arg5.IsWhole) (arg6 : Memref sig .tc .vmem S1024x1 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x512 .f32) (harg10 : arg10.IsWhole) (hc0 : ¬cond0_0 i) (hc1 : ¬cond0_1 i)
    (x0 : Vec F S1024x1024 .f32) (x1 : Vec F S1024x512 .f32) (x2 : Vec F S1024x1 .f32) (x3 : Vec F S1024x512 .f32) (x4 : Vec F S1024x1 .f32) (x5 : Vec F S512x256 .f32) (x6 : Vec F S1x256 .f32) (xs0 : Vec F S1024x512 .f32) :
    Σ' (L7 : List (View.Piece (Elt F) S1024x256 .f32)), { LS0 : List (View.Piece (Elt F) S1024x512 .f32) //
      ∀ (xi7 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.Kernel.Fr

end
-- ==== Proof.K.RunA.lean ====
/-
  The body at the first column block of a row tile: the accumulator is reset to zero, whatever it held, and then the
  block's product is added to it. The output window is not touched.
-/
import proofs.«166288_j34239479283727_1_alg».proof.Proof.K.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's two stores leave in the accumulator (the later first), with the proof that on whole memrefs —
    the inputs at their contents, the output window at contents handed back untouched, the accumulator at anything — the
    body runs to the continuation. -/
noncomputable def kernelRun0_A (c : Dev nD) (i : grid0.Coords) (arg2 : Memref sig .tc .vmem S1024x1024 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .f32) (harg5 : arg5.IsWhole) (arg6 : Memref sig .tc .vmem S1024x1 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x512 .f32) (harg10 : arg10.IsWhole) (hc0 : cond0_0 i) (hc1 : ¬cond0_1 i)
    (x0 : Vec F S1024x1024 .f32) (x1 : Vec F S1024x512 .f32) (x2 : Vec F S1024x1 .f32) (x3 : Vec F S1024x512 .f32) (x4 : Vec F S1024x1 .f32) (x5 : Vec F S512x256 .f32) (x6 : Vec F S1x256 .f32) :
    Σ' (L7 : List (View.Piece (Elt F) S1024x256 .f32)), { LS0 : List (View.Piece (Elt F) S1024x512 .f32) //
      ∀ (xi7 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.Kernel.Fr

end
-- ==== Proof.K.RunC.lean ====
/-
  The body at the last column block of a row tile: the block's product is added to the accumulator, and then the output
  tile is computed from the accumulator, the row tile's own scaled features, the weight and the bias, and stored.
-/
import proofs.«166288_j34239479283727_1_alg».proof.Proof.K.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output window and in the accumulator, with the proof that on whole memrefs —
    the inputs at their contents, the output window at anything, the accumulator at what the point before left — the body
    runs to the continuation. -/
noncomputable def kernelRun0_C (c : Dev nD) (i : grid0.Coords) (arg2 : Memref sig .tc .vmem S1024x1024 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .f32) (harg5 : arg5.IsWhole) (arg6 : Memref sig .tc .vmem S1024x1 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x512 .f32) (harg10 : arg10.IsWhole) (hc0 : ¬cond0_0 i) (hc1 : cond0_1 i)
    (x0 : Vec F S1024x1024 .f32) (x1 : Vec F S1024x512 .f32) (x2 : Vec F S1024x1 .f32) (x3 : Vec F S1024x512 .f32) (x4 : Vec F S1024x1 .f32) (x5 : Vec F S512x256 .f32) (x6 : Vec F S1x256 .f32) (xs0 : Vec F S1024x512 .f32) :
    Σ' (L7 : List (View.Piece (Elt F) S1024x256 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.Kernel.Fr

end
-- ==== Proof.K.Frame.lean ====
/-
  The frame of the one region: what the accumulator and the output window hold point by point, the proof data over it,
  the body's obligation at every point, and the run.

  The accumulator after point t is, by recursion on t: at the first column block of a row tile what the reset-and-add
  case leaves, otherwise what the add case (or, at the last column block, the add-and-output case) leaves over what
  the point before left. The output window's buffer holds the computed tile after the last column block of each row
  tile, where it is written back; at the other points it is idle. The feature array is read through two windows and so
  is the scale column: each pair holds its array at the two halves of the full share.
-/
import proofs.«166288_j34239479283727_1_alg».proof.Proof.K.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The reset-and-add case's two pieces cover the accumulator. -/
theorem scover0_A_0 (c : Dev nD) (i : grid0.Coords) (arg2 : Memref sig .tc .vmem S1024x1024 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .f32) (harg5 : arg5.IsWhole) (arg6 : Memref sig .tc .vmem S1024x1 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x512 .f32) (harg10 : arg10.IsWhole) (hc0 : cond0_0 i) (hc1 : ¬cond0_1 i)
    (x0 : Vec F S1024x1024 .f32) (x1 : Vec F S1024x512 .f32) (x2 : Vec F S1024x1 .f32) (x3 : Vec F S1024x512 .f32) (x4 : Vec F S1024x1 .f32) (x5 : Vec F S512x256 .f32) (x6 : Vec F S1x256 .f32) (y : S1024x512.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5 x6).2.1 S1024x512.size (by sl_kernel_rfl) y

/-- What the reset-and-add case leaves in the accumulator. -/
def sout0_A_0 (c : Dev nD) (i : grid0.Coords) (arg2 : Memref sig .tc .vmem S1024x1024 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .f32) (harg5 : arg5.IsWhole) (arg6 : Memref sig .tc .vmem S1024x1 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x512 .f32) (harg10 : arg10.IsWhole) (hc0 : cond0_0 i) (hc1 : ¬cond0_1 i)
    (x0 : Vec F S1024x1024 .f32) (x1 : Vec F S1024x512 .f32) (x2 : Vec F S1024x1 .f32) (x3 : Vec F S1024x512 .f32) (x4 : Vec F S1024x1 .f32) (x5 : Vec F S512x256 .f32) (x6 : Vec F S1x256 .f32) : Vec F S1024x512 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4 x5 x6).2.1)

/-- The add case's piece covers the accumulator. -/
theorem scover0_B_0 (c : Dev nD) (i : grid0.Coords) (arg2 : Memref sig .tc .vmem S1024x1024 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .f32) (harg5 : arg5.IsWhole) (arg6 : Memref sig .tc .vmem S1024x1 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x512 .f32) (harg10 : arg10.IsWhole) (hc0 : ¬cond0_0 i) (hc1 : ¬cond0_1 i)
    (x0 : Vec F S1024x1024 .f32) (x1 : Vec F S1024x512 .f32) (x2 : Vec F S1024x1 .f32) (x3 : Vec F S1024x512 .f32) (x4 : Vec F S1024x1 .f32) (x5 : Vec F S512x256 .f32) (x6 : Vec F S1x256 .f32) (xs0 : Vec F S1024x512 .f32) (y : S1024x512.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 x6 xs0).2.1 S1024x512.size (by sl_kernel_rfl) y

/-- What the add case leaves in the accumulator, over what the point before left. -/
def sout0_B_0 (c : Dev nD) (i : grid0.Coords) (arg2 : Memref sig .tc .vmem S1024x1024 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .f32) (harg5 : arg5.IsWhole) (arg6 : Memref sig .tc .vmem S1024x1 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x512 .f32) (harg10 : arg10.IsWhole) (hc0 : ¬cond0_0 i) (hc1 : ¬cond0_1 i)
    (x0 : Vec F S1024x1024 .f32) (x1 : Vec F S1024x512 .f32) (x2 : Vec F S1024x1 .f32) (x3 : Vec F S1024x512 .f32) (x4 : Vec F S1024x1 .f32) (x5 : Vec F S512x256 .f32) (x6 : Vec F S1x256 .f32) (xs0 : Vec F S1024x512 .f32) : Vec F S1024x512 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 x5 x6 xs0).2.1)

/-- The add-and-output case's piece covers the accumulator. -/
theorem scover0_C_0 (c : Dev nD) (i : grid0.Coords) (arg2 : Memref sig .tc .vmem S1024x1024 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .f32) (harg5 : arg5.IsWhole) (arg6 : Memref sig .tc .vmem S1024x1 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x512 .f32) (harg10 : arg10.IsWhole) (hc0 : ¬cond0_0 i) (hc1 : cond0_1 i)
    (x0 : Vec F S1024x1024 .f32) (x1 : Vec F S1024x512 .f32) (x2 : Vec F S1024x1 .f32) (x3 : Vec F S1024x512 .f32) (x4 : Vec F S1024x1 .f32) (x5 : Vec F S512x256 .f32) (x6 : Vec F S1x256 .f32) (xs0 : Vec F S1024x512 .f32) (y : S1024x512.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 x6 xs0).2.1 S1024x512.size (by sl_kernel_rfl) y

/-- What the add-and-output case leaves in the accumulator. -/
def sout0_C_0 (c : Dev nD) (i : grid0.Coords) (arg2 : Memref sig .tc .vmem S1024x1024 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .f32) (harg5 : arg5.IsWhole) (arg6 : Memref sig .tc .vmem S1024x1 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x512 .f32) (harg10 : arg10.IsWhole) (hc0 : ¬cond0_0 i) (hc1 : cond0_1 i)
    (x0 : Vec F S1024x1024 .f32) (x1 : Vec F S1024x512 .f32) (x2 : Vec F S1024x1 .f32) (x3 : Vec F S1024x512 .f32) (x4 : Vec F S1024x1 .f32) (x5 : Vec F S512x256 .f32) (x6 : Vec F S1x256 .f32) (xs0 : Vec F S1024x512 .f32) : Vec F S1024x512 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 x5 x6 xs0).2.1)

/-- Its piece for the output window covers the tile. -/
theorem cover0_C_7 (c : Dev nD) (i : grid0.Coords) (arg2 : Memref sig .tc .vmem S1024x1024 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .f32) (harg5 : arg5.IsWhole) (arg6 : Memref sig .tc .vmem S1024x1 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x512 .f32) (harg10 : arg10.IsWhole) (hc0 : ¬cond0_0 i) (hc1 : cond0_1 i)
    (x0 : Vec F S1024x1024 .f32) (x1 : Vec F S1024x512 .f32) (x2 : Vec F S1024x1 .f32) (x3 : Vec F S1024x512 .f32) (x4 : Vec F S1024x1 .f32) (x5 : Vec F S512x256 .f32) (x6 : Vec F S1x256 .f32) (xs0 : Vec F S1024x512 .f32) (y : S1024x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 x6 xs0).1 S1024x256.size (by sl_kernel_rfl) y

/-- What it leaves in the output window's buffer. -/
def out0_C_7 (c : Dev nD) (i : grid0.Coords) (arg2 : Memref sig .tc .vmem S1024x1024 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .f32) (harg5 : arg5.IsWhole) (arg6 : Memref sig .tc .vmem S1024x1 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x512 .f32) (harg10 : arg10.IsWhole) (hc0 : ¬cond0_0 i) (hc1 : cond0_1 i)
    (x0 : Vec F S1024x1024 .f32) (x1 : Vec F S1024x512 .f32) (x2 : Vec F S1024x1 .f32) (x3 : Vec F S1024x512 .f32) (x4 : Vec F S1024x1 .f32) (x5 : Vec F S512x256 .f32) (x6 : Vec F S1x256 .f32) (xs0 : Vec F S1024x512 .f32) : Vec F S1024x256 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 hc0 hc1 x0 x1 x2 x3 x4 x5 x6 xs0).1)

/-! ## The accumulator and the output window, point by point -/

/-- What the accumulator holds after the body at position `n`. -/
def accAt (c : Dev nD) : (n : ℕ) → n < cfg0.N → Vec F S1024x512 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _))
      (fun h => by have h' : (0 : ℕ) % 16 = 15 := (hcond0_1 ⟨0, hn⟩).mp h; omega) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
  | n + 1, hn =>
    if h0 : (n + 1) % 16 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0)
        (fun h => by have h' : (n + 1) % 16 = 15 := (hcond0_1 ⟨n + 1, hn⟩).mp h; omega) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
    else if h1 : (n + 1) % 16 = 15 then
      sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1)
        (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (accAt c n (Nat.lt_of_succ_lt hn))
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h))
        (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (accAt c n (Nat.lt_of_succ_lt hn))

theorem accAt_A (c : Dev nD) (t : Fin cfg0.N) (h0 : t.val % 16 = 0) :
    accAt m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0)
      (fun h => by have h' : t.val % 16 = 15 := (hcond0_1 t).mp h; omega) (iblk m c 0 t) (iblk m c 1 t) (iblk m c 2 t) (iblk m c 3 t) (iblk m c 4 t) (iblk m c 5 t) (iblk m c 6 t) := by
  obtain ⟨n, hn⟩ := t
  cases n with
  | zero => exact rfl
  | succ n => exact (dif_pos h0).trans rfl

theorem accAt_B (c : Dev nD) (t : Fin cfg0.N) (h0 : ¬t.val % 16 = 0) (h1 : ¬t.val % 16 = 15) :
    accAt m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h))
      (iblk m c 0 t) (iblk m c 1 t) (iblk m c 2 t) (iblk m c 3 t) (iblk m c 4 t) (iblk m c 5 t) (iblk m c 6 t) (accAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt_C (c : Dev nD) (t : Fin cfg0.N) (h0 : ¬t.val % 16 = 0) (h1 : t.val % 16 = 15) :
    accAt m c t.val t.isLt = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1)
      (iblk m c 0 t) (iblk m c 1 t) (iblk m c 2 t) (iblk m c 3 t) (iblk m c 4 t) (iblk m c 5 t) (iblk m c 6 t) (accAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output window's buffer holds after the body at point `t`: the computed tile at the last column block of a
    row tile; elsewhere the window is idle and this is not consulted. -/
def outAt (c : Dev nD) (t : Fin cfg0.N) : Vec F S1024x256 .f32 :=
  if h1 : t.val % 16 = 15 then
    out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => by have h' : t.val % 16 = 0 := (hcond0_0 t).mp h; omega) ((hcond0_1 t).mpr h1)
      (iblk m c 0 t) (iblk m c 1 t) (iblk m c 2 t) (iblk m c 3 t) (iblk m c 4 t) (iblk m c 5 t) (iblk m c 6 t) (accAt m c (t.val - 1) (Nat.lt_of_le_of_lt (Nat.sub_le _ _) t.isLt))
  else VO0_7.read (Elt F) VO0_7.junk

theorem outAt_C (c : Dev nD) (t : Fin cfg0.N) (h0 : ¬t.val % 16 = 0) (h1 : t.val % 16 = 15) :
    outAt m c t = out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1)
      (iblk m c 0 t) (iblk m c 1 t) (iblk m c 2 t) (iblk m c 3 t) (iblk m c 4 t) (iblk m c 5 t) (iblk m c 6 t) (accAt m c (t.val - 1) (Nat.lt_of_le_of_lt (Nat.sub_le _ _) t.isLt)) :=
  (dif_pos h1).trans rfl

/-! ## The region's invariant -/

/-- Before the first point the accumulator holds anything; before any later point it holds what the point before left. -/
def PhiS (c : Dev nD) : (n : ℕ) → n ≤ cfg0.N → sProp 𝕄
  | 0, _ => (Pipeline.scopedRest (Ix := Unit) (Name := ℕ) (U := UR sig nD τ) (Lvl := ℕ) (Val := Elt F) spec0 c : sProp 𝕄)
  | n + 1, hn => owns (c : Thread nD τ) scM0_0 fullShare (accAt m c n hn)

theorem PhiS_zero (c : Dev nD) (n : ℕ) (h : n ≤ cfg0.N) (hz : n = 0) :
    PhiS m c n h = (Pipeline.scopedRest (Ix := Unit) (Name := ℕ) (U := UR sig nD τ) (Lvl := ℕ) (Val := Elt F) spec0 c : sProp 𝕄) := by
  subst hz; rfl

theorem PhiS_succ (c : Dev nD) (n : ℕ) (hn : n < cfg0.N) :
    PhiS m c (n + 1) hn = owns (c : Thread nD τ) scM0_0 fullShare (accAt m c n hn) := rfl

theorem PhiS_pos (c : Dev nD) (n : ℕ) (h : n ≤ cfg0.N) (hz : n ≠ 0) :
    PhiS m c n h = owns (c : Thread nD τ) scM0_0 fullShare (accAt m c (n - 1) (by omega)) := by
  cases n with
  | zero => exact absurd rfl hz
  | succ n => rfl

/-! ## The proof data -/

/-- The arrays as the region finds them; after the body each input's buffer at its block and the output's at `outAt`;
    the invariant `PhiS`; the feature array and the scale column each held at two half shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := PhiS m c t.val (Nat.le_of_lt_succ t.isLt)
  q w := match w with
    | ⟨0, _⟩ => fullShare
    | ⟨1, _⟩ => fullShare.left
    | ⟨2, _⟩ => fullShare.left
    | ⟨3, _⟩ => fullShare.right
    | ⟨4, _⟩ => fullShare.right
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- The body at any point: the inputs' buffers hold their blocks; the point's position in its row tile says which case
    runs; the invariant hands the accumulator over at what the point before left (at anything where it is reset) and
    takes it back at this point's contents; the output window is handed back untouched unless the tile is computed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 16 = 0
  · have h1 : ¬t.val % 16 = 15 := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [Dat.leavesExact_idle (dats m 0 c) 7 t (idleAt0_7 t (fun h => h1 ((hcond0_1 t).mp h))) (noFlush0_7 t (fun h => h1 ((hcond0_1 t).mp h)))]
    rw [accAt_A m c t h0]
    unfold sout0_A_0; (try dsimp only)
    by_cases hz : t.val = 0
    · rw [PhiS_castSucc m c t, PhiS_zero m c _ _ hz, scopedRest0_owns]
      iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iintro ⟨H0, H1, H2, H3, H4, H5, H6, H7, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      iintro ⟨H0, H1, H2, H3, H4, H5, H6, H7, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun e => h0 (by rw [e])
    by_cases h1 : t.val % 16 = 15
    · rw [show (dats m 0 c).leavesExact 7 t = owns (c : Thread nD τ) (ms0_7 t) fullShare ((dats m 0 c).after 7 t) from by
        unfold Dat.leavesExact; rw [liveAt0_7 t ((hcond0_1 t).mpr h1)], after0_7]
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [accAt_C m c t h0 h1, outAt_C m c t h0 h1]
      unfold out0_C_7 sout0_C_0; (try dsimp only)
      rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_C_7 c _ _ _ _ _ _ _ _ _ _ _ _ _ _ _ _ _ _ _ _ _ _ _ _ _ _ _ _ _)
    · rw [Dat.leavesExact_idle (dats m 0 c) 7 t (idleAt0_7 t (fun h => h1 ((hcond0_1 t).mp h))) (noFlush0_7 t (fun h => h1 ((hcond0_1 t).mp h)))]
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [accAt_B m c t h0 h1]
      unfold sout0_B_0; (try dsimp only)
      rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iintro ⟨H0, H1, H2, H3, H4, H5, H6, H7, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## Entering and leaving the region -/

/-- The six distinct buffers behind the eight windows' arrays, conjoined one by one. -/
theorem bigSep_arrs0 {M : Type} [URA M] (Φ : Ref sig .tc → sProp M) :
    bigSep (Finset.univ.image (Pipeline.arrRef spec0)) Φ
      = iprop(Φ main_arg0 ∗ Φ main_arg2 ∗ Φ main_v0 ∗ Φ main_v2 ∗ Φ main_v1 ∗ Φ main_v3) :=
  bigSep_eq_bigSepL_of_eq [main_arg0, main_arg2, main_v0, main_v2, main_v1, main_v3] (by decide) (by decide) Φ

/-- The distinct buffers behind the windows' arrays, each whole, make the windows' arrays at their shares: the feature
    array and the scale column are each split into their two halves. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_arrs0, bigSep_W0]
  have s0 : (dats m 0 c).share 0 = fullShare := rfl
  have s1 : (dats m 0 c).share 1 = fullShare.left := rfl
  have s2 : (dats m 0 c).share 2 = fullShare.left := rfl
  have s3 : (dats m 0 c).share 3 = fullShare.right := rfl
  have s4 : (dats m 0 c).share 4 = fullShare.right := rfl
  have s5 : (dats m 0 c).share 5 = fullShare := rfl
  have s6 : (dats m 0 c).share 6 = fullShare := rfl
  have s7 : (dats m 0 c).share 7 = fullShare := rfl
  iintro ⟨H0, H2, Hv0, Hv2, Hv1, Hv3⟩
  ihave ⟨H2a, H2b⟩ := (pointsTo_share (PosShare.mem_left_op_right fullShare)).1 $$ H2
  ihave ⟨Hv0a, Hv0b⟩ := (pointsTo_share (PosShare.mem_left_op_right fullShare)).1 $$ Hv0
  isplitl [H0]
  · rw [show (cfg0.win 0).arr.view.set = Finset.univ from (arr_whole0 0).set_eq_univ, s0]; iexact H0
  isplitl [H2a]
  · rw [show (cfg0.win 1).arr.view.set = Finset.univ from (arr_whole0 1).set_eq_univ, s1]; iexact H2a
  isplitl [Hv0a]
  · rw [show (cfg0.win 2).arr.view.set = Finset.univ from (arr_whole0 2).set_eq_univ, s2]; iexact Hv0a
  isplitl [H2b]
  · rw [show (cfg0.win 3).arr.view.set = Finset.univ from (arr_whole0 3).set_eq_univ, s3]; iexact H2b
  isplitl [Hv0b]
  · rw [show (cfg0.win 4).arr.view.set = Finset.univ from (arr_whole0 4).set_eq_univ, s4]; iexact Hv0b
  isplitl [Hv2]
  · rw [show (cfg0.win 5).arr.view.set = Finset.univ from (arr_whole0 5).set_eq_univ, s5]; iexact Hv2
  isplitl [Hv1]
  · rw [show (cfg0.win 6).arr.view.set = Finset.univ from (arr_whole0 6).set_eq_univ, s6]; iexact Hv1
  rw [show (cfg0.win 7).arr.view.set = Finset.univ from (arr_whole0 7).set_eq_univ, s7]; iexact Hv3

/-- What the launch hands the region is the invariant before the first point. -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulator back, its contents forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 256 := N_0; omega), scopedRest0_owns]
  iintro HS0
  iexists _; iexact HS0

/-! ## The run and the frame -/

set_option backward.isDefEq.respectTransparency.types false in
/-- Every weakly fair execution of @main terminates, and in every final state each window's array holds what the
    write-backs leave and every other unscoped buffer what the region found. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hin := hin m) (hout := hout m)

end Cert.Kernel.Fr

end
-- ==== Proof.K.Args.lean ====
/-
  The region finds the five argument arrays as they were launched: the three layout operations before it write only
  their own results (the scale column, the bias row, the transposed weight).
-/
import proofs.«166288_j34239479283727_1_alg».proof.Proof.K.Base
import Idealize.ShloMosaic.Lib.StableHlo.Run

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three layout operations write their own results only: the column, the row and the transposed weight. -/
theorem layout_writes :
    (hostOps0 : List (HloOp τ sig (Elt F))).Forall fun op =>
      op.writes ⊆ ([main_v0, main_v1, main_v2].map (Proc.devRef (τ := τ) .tc)).toFinset := by
  refine ⟨?_, ?_, ?_⟩ <;>
    exact Finset.singleton_subset_iff.mpr (List.mem_toFinset.mpr (List.mem_map_of_mem (by decide)))

/-- No layout operation writes an argument: the region finds each as launched. -/
theorem V_main_arg0 (c : Dev nD) : V m c main_arg0 = m ((c : Thread nD τ).loc main_arg0) :=
  StableHlo.after_of_writes_sub (r := main_arg0) hostOps0 _ layout_writes (by decide)
theorem V_main_arg1 (c : Dev nD) : V m c main_arg1 = m ((c : Thread nD τ).loc main_arg1) :=
  StableHlo.after_of_writes_sub (r := main_arg1) hostOps0 _ layout_writes (by decide)
theorem V_main_arg2 (c : Dev nD) : V m c main_arg2 = m ((c : Thread nD τ).loc main_arg2) :=
  StableHlo.after_of_writes_sub (r := main_arg2) hostOps0 _ layout_writes (by decide)
theorem V_main_arg3 (c : Dev nD) : V m c main_arg3 = m ((c : Thread nD τ).loc main_arg3) :=
  StableHlo.after_of_writes_sub (r := main_arg3) hostOps0 _ layout_writes (by decide)
theorem V_main_arg4 (c : Dev nD) : V m c main_arg4 = m ((c : Thread nD τ).loc main_arg4) :=
  StableHlo.after_of_writes_sub (r := main_arg4) hostOps0 _ layout_writes (by decide)

end Cert.Kernel.Fr

end
-- ==== Proof.K.FrameClaim.lean ====
/-
  The frame claim: every weakly fair execution terminates without a fault and the five argument arrays end unchanged.

  The adjacency and the features are arrays of input windows, which the pipeline never writes; the scale vector, the weight
  and the bias are staged by no window (their reshaped or transposed copies are), and every such buffer ends as the
  region found it. Each was found as launched.
-/
import proofs.«166288_j34239479283727_1_alg».proof.Proof.K.Frame
import proofs.«166288_j34239479283727_1_alg».proof.Proof.K.Args

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.Kernel.Fr

end
-- ==== Proof.KI.Base.lean ====
/-
  What the region is entered with, and the vocabulary the body's runs and the proof data are stated over.

  @main applies three layout operations (the scale vector as a column, the bias as a row, the weight transposed) and
  then launches the one region on a 16 × 16 grid: point t is row tile t / 16, column block t % 16. The accumulator is
  reset where t % 16 = 0 and the output tile is computed and written back where t % 16 = 15; everywhere else the
  output window is idle. Two of the windows read the feature array and two read the scale column: each pair holds its
  array at two shares that make the whole.
-/
import proofs.«166288_j34239479283727_1_alg».proof.Proof.Gen.KernelIdeal.Launch
import proofs.«166288_j34239479283727_1_alg».proof.Proof.Gen.KernelIdeal.Skeleton
import proofs.«166288_j34239479283727_1_alg».proof.Proof.Gen.KernelIdeal.Points
import proofs.«166288_j34239479283727_1_alg».proof.Proof.LibSharedLaunch
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffer contents when the region is entered: the launch contents after the three layout operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the layout operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The first column block: the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The last column block: the output tile is computed. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Where the output tile is not computed the output window is idle and is not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
/-- Where it is computed the window is live. -/
theorem liveAt0_7 : ∀ t : Fin cfg0.N, cond0_1 (grid0.coords t) → cfg0.idle 7 (grid0.coords t) = false := by decide +kernel

/-! ## The memrefs the body is called with -/

/-- One staging buffer of the output window, through which its contents are stated. -/
abbrev VO0_7 : View sig .tc .vmem S1024x256 .f32 := (Memref.whole cc0_stg7_0 : Memref sig .tc .vmem S1024x256 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x256 .f32 := win0_7.stage (cfg0.slots t 7)
abbrev hs0_7 (t : Fin cfg0.N) : (ms0_7 t).IsWhole := hstage0_7 ((cfg0.slots t 7).cast nbuf0_7)
/-- The accumulator: a whole scoped buffer of the kernel's own, carried from point to point. -/
abbrev scM0_0 : Memref sig .tc .vmem S1024x512 .f32 := Memref.whole cc0_scratch0
abbrev VS0_0 : View sig .tc .vmem S1024x512 .f32 := scM0_0.view

/-- The core's scoped buffers that are no staging buffer are the accumulator alone, owned at some contents. -/
theorem scopedRest0_owns (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.KernelIdeal.Fr

end
-- ==== Proof.KI.RunB.lean ====
/-
  The body at a point that is neither the first nor the last column block of its row tile: it loads the scale block, the
  feature block, the adjacency block and the accumulator, and stores the accumulator plus the block's product back.
  The output window is not touched.
-/
import proofs.«166288_j34239479283727_1_alg».proof.Proof.KI.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's one store leaves in the accumulator, with the proof that on whole memrefs — the inputs at their
    contents, the output window at contents handed back untouched, the accumulator at what the point before left — the
    body runs to the continuation. -/
noncomputable def kernelRun0_B (c : Dev nD) (i : grid0.Coords) (arg2 : Memref sig .tc .vmem S1024x1024 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .f32) (harg5 : arg5.IsWhole) (arg6 : Memref sig .tc .vmem S1024x1 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x512 .f32) (harg10 : arg10.IsWhole) (hc0 : ¬cond0_0 i) (hc1 : ¬cond0_1 i)
    (x0 : Vec F S1024x1024 .f32) (x1 : Vec F S1024x512 .f32) (x2 : Vec F S1024x1 .f32) (x3 : Vec F S1024x512 .f32) (x4 : Vec F S1024x1 .f32) (x5 : Vec F S512x256 .f32) (x6 : Vec F S1x256 .f32) (xs0 : Vec F S1024x512 .f32) :
    Σ' (L7 : List (View.Piece (Elt F) S1024x256 .f32)), { LS0 : List (View.Piece (Elt F) S1024x512 .f32) //
      ∀ (xi7 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.KernelIdeal.Fr

end
-- ==== Proof.KI.RunA.lean ====
/-
  The body at the first column block of a row tile: the accumulator is reset to zero, whatever it held, and then the
  block's product is added to it. The output window is not touched.
-/
import proofs.«166288_j34239479283727_1_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's two stores leave in the accumulator (the later first), with the proof that on whole memrefs —
    the inputs at their contents, the output window at contents handed back untouched, the accumulator at anything — the
    body runs to the continuation. -/
noncomputable def kernelRun0_A (c : Dev nD) (i : grid0.Coords) (arg2 : Memref sig .tc .vmem S1024x1024 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .f32) (harg5 : arg5.IsWhole) (arg6 : Memref sig .tc .vmem S1024x1 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x512 .f32) (harg10 : arg10.IsWhole) (hc0 : cond0_0 i) (hc1 : ¬cond0_1 i)
    (x0 : Vec F S1024x1024 .f32) (x1 : Vec F S1024x512 .f32) (x2 : Vec F S1024x1 .f32) (x3 : Vec F S1024x512 .f32) (x4 : Vec F S1024x1 .f32) (x5 : Vec F S512x256 .f32) (x6 : Vec F S1x256 .f32) :
    Σ' (L7 : List (View.Piece (Elt F) S1024x256 .f32)), { LS0 : List (View.Piece (Elt F) S1024x512 .f32) //
      ∀ (xi7 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.KernelIdeal.Fr

end
-- ==== Proof.KI.RunC.lean ====
/-
  The body at the last column block of a row tile: the block's product is added to the accumulator, and then the output
  tile is computed from the accumulator, the row tile's own scaled features, the weight and the bias, and stored.
-/
import proofs.«166288_j34239479283727_1_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output window and in the accumulator, with the proof that on whole memrefs —
    the inputs at their contents, the output window at anything, the accumulator at what the point before left — the body
    runs to the continuation. -/
noncomputable def kernelRun0_C (c : Dev nD) (i : grid0.Coords) (arg2 : Memref sig .tc .vmem S1024x1024 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .f32) (harg5 : arg5.IsWhole) (arg6 : Memref sig .tc .vmem S1024x1 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x512 .f32) (harg10 : arg10.IsWhole) (hc0 : ¬cond0_0 i) (hc1 : cond0_1 i)
    (x0 : Vec F S1024x1024 .f32) (x1 : Vec F S1024x512 .f32) (x2 : Vec F S1024x1 .f32) (x3 : Vec F S1024x512 .f32) (x4 : Vec F S1024x1 .f32) (x5 : Vec F S512x256 .f32) (x6 : Vec F S1x256 .f32) (xs0 : Vec F S1024x512 .f32) :
    Σ' (L7 : List (View.Piece (Elt F) S1024x256 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.KernelIdeal.Fr

end
-- ==== Proof.KI.Frame.lean ====
/-
  The frame of the one region: what the accumulator and the output window hold point by point, the proof data over it,
  the body's obligation at every point, and the run.

  The accumulator after point t is, by recursion on t: at the first column block of a row tile what the reset-and-add
  case leaves, otherwise what the add case (or, at the last column block, the add-and-output case) leaves over what
  the point before left. The output window's buffer holds the computed tile after the last column block of each row
  tile, where it is written back; at the other points it is idle. The feature array is read through two windows and so
  is the scale column: each pair holds its array at the two halves of the full share.
-/
import proofs.«166288_j34239479283727_1_alg».proof.Proof.KI.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The reset-and-add case's two pieces cover the accumulator. -/
theorem scover0_A_0 (c : Dev nD) (i : grid0.Coords) (arg2 : Memref sig .tc .vmem S1024x1024 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .f32) (harg5 : arg5.IsWhole) (arg6 : Memref sig .tc .vmem S1024x1 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x512 .f32) (harg10 : arg10.IsWhole) (hc0 : cond0_0 i) (hc1 : ¬cond0_1 i)
    (x0 : Vec F S1024x1024 .f32) (x1 : Vec F S1024x512 .f32) (x2 : Vec F S1024x1 .f32) (x3 : Vec F S1024x512 .f32) (x4 : Vec F S1024x1 .f32) (x5 : Vec F S512x256 .f32) (x6 : Vec F S1x256 .f32) (y : S1024x512.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5 x6).2.1 S1024x512.size (by sl_kernel_rfl) y

/-- What the reset-and-add case leaves in the accumulator. -/
def sout0_A_0 (c : Dev nD) (i : grid0.Coords) (arg2 : Memref sig .tc .vmem S1024x1024 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .f32) (harg5 : arg5.IsWhole) (arg6 : Memref sig .tc .vmem S1024x1 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x512 .f32) (harg10 : arg10.IsWhole) (hc0 : cond0_0 i) (hc1 : ¬cond0_1 i)
    (x0 : Vec F S1024x1024 .f32) (x1 : Vec F S1024x512 .f32) (x2 : Vec F S1024x1 .f32) (x3 : Vec F S1024x512 .f32) (x4 : Vec F S1024x1 .f32) (x5 : Vec F S512x256 .f32) (x6 : Vec F S1x256 .f32) : Vec F S1024x512 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4 x5 x6).2.1)

/-- The add case's piece covers the accumulator. -/
theorem scover0_B_0 (c : Dev nD) (i : grid0.Coords) (arg2 : Memref sig .tc .vmem S1024x1024 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .f32) (harg5 : arg5.IsWhole) (arg6 : Memref sig .tc .vmem S1024x1 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x512 .f32) (harg10 : arg10.IsWhole) (hc0 : ¬cond0_0 i) (hc1 : ¬cond0_1 i)
    (x0 : Vec F S1024x1024 .f32) (x1 : Vec F S1024x512 .f32) (x2 : Vec F S1024x1 .f32) (x3 : Vec F S1024x512 .f32) (x4 : Vec F S1024x1 .f32) (x5 : Vec F S512x256 .f32) (x6 : Vec F S1x256 .f32) (xs0 : Vec F S1024x512 .f32) (y : S1024x512.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 x6 xs0).2.1 S1024x512.size (by sl_kernel_rfl) y

/-- What the add case leaves in the accumulator, over what the point before left. -/
def sout0_B_0 (c : Dev nD) (i : grid0.Coords) (arg2 : Memref sig .tc .vmem S1024x1024 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .f32) (harg5 : arg5.IsWhole) (arg6 : Memref sig .tc .vmem S1024x1 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x512 .f32) (harg10 : arg10.IsWhole) (hc0 : ¬cond0_0 i) (hc1 : ¬cond0_1 i)
    (x0 : Vec F S1024x1024 .f32) (x1 : Vec F S1024x512 .f32) (x2 : Vec F S1024x1 .f32) (x3 : Vec F S1024x512 .f32) (x4 : Vec F S1024x1 .f32) (x5 : Vec F S512x256 .f32) (x6 : Vec F S1x256 .f32) (xs0 : Vec F S1024x512 .f32) : Vec F S1024x512 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 x5 x6 xs0).2.1)

/-- The add-and-output case's piece covers the accumulator. -/
theorem scover0_C_0 (c : Dev nD) (i : grid0.Coords) (arg2 : Memref sig .tc .vmem S1024x1024 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .f32) (harg5 : arg5.IsWhole) (arg6 : Memref sig .tc .vmem S1024x1 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x512 .f32) (harg10 : arg10.IsWhole) (hc0 : ¬cond0_0 i) (hc1 : cond0_1 i)
    (x0 : Vec F S1024x1024 .f32) (x1 : Vec F S1024x512 .f32) (x2 : Vec F S1024x1 .f32) (x3 : Vec F S1024x512 .f32) (x4 : Vec F S1024x1 .f32) (x5 : Vec F S512x256 .f32) (x6 : Vec F S1x256 .f32) (xs0 : Vec F S1024x512 .f32) (y : S1024x512.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 x6 xs0).2.1 S1024x512.size (by sl_kernel_rfl) y

/-- What the add-and-output case leaves in the accumulator. -/
def sout0_C_0 (c : Dev nD) (i : grid0.Coords) (arg2 : Memref sig .tc .vmem S1024x1024 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .f32) (harg5 : arg5.IsWhole) (arg6 : Memref sig .tc .vmem S1024x1 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x512 .f32) (harg10 : arg10.IsWhole) (hc0 : ¬cond0_0 i) (hc1 : cond0_1 i)
    (x0 : Vec F S1024x1024 .f32) (x1 : Vec F S1024x512 .f32) (x2 : Vec F S1024x1 .f32) (x3 : Vec F S1024x512 .f32) (x4 : Vec F S1024x1 .f32) (x5 : Vec F S512x256 .f32) (x6 : Vec F S1x256 .f32) (xs0 : Vec F S1024x512 .f32) : Vec F S1024x512 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 x5 x6 xs0).2.1)

/-- Its piece for the output window covers the tile. -/
theorem cover0_C_7 (c : Dev nD) (i : grid0.Coords) (arg2 : Memref sig .tc .vmem S1024x1024 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .f32) (harg5 : arg5.IsWhole) (arg6 : Memref sig .tc .vmem S1024x1 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x512 .f32) (harg10 : arg10.IsWhole) (hc0 : ¬cond0_0 i) (hc1 : cond0_1 i)
    (x0 : Vec F S1024x1024 .f32) (x1 : Vec F S1024x512 .f32) (x2 : Vec F S1024x1 .f32) (x3 : Vec F S1024x512 .f32) (x4 : Vec F S1024x1 .f32) (x5 : Vec F S512x256 .f32) (x6 : Vec F S1x256 .f32) (xs0 : Vec F S1024x512 .f32) (y : S1024x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 x6 xs0).1 S1024x256.size (by sl_kernel_rfl) y

/-- What it leaves in the output window's buffer. -/
def out0_C_7 (c : Dev nD) (i : grid0.Coords) (arg2 : Memref sig .tc .vmem S1024x1024 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .f32) (harg5 : arg5.IsWhole) (arg6 : Memref sig .tc .vmem S1024x1 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x512 .f32) (harg10 : arg10.IsWhole) (hc0 : ¬cond0_0 i) (hc1 : cond0_1 i)
    (x0 : Vec F S1024x1024 .f32) (x1 : Vec F S1024x512 .f32) (x2 : Vec F S1024x1 .f32) (x3 : Vec F S1024x512 .f32) (x4 : Vec F S1024x1 .f32) (x5 : Vec F S512x256 .f32) (x6 : Vec F S1x256 .f32) (xs0 : Vec F S1024x512 .f32) : Vec F S1024x256 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 hc0 hc1 x0 x1 x2 x3 x4 x5 x6 xs0).1)

/-! ## The accumulator and the output window, point by point -/

/-- What the accumulator holds after the body at position `n`. -/
def accAt (c : Dev nD) : (n : ℕ) → n < cfg0.N → Vec F S1024x512 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _))
      (fun h => by have h' : (0 : ℕ) % 16 = 15 := (hcond0_1 ⟨0, hn⟩).mp h; omega) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
  | n + 1, hn =>
    if h0 : (n + 1) % 16 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0)
        (fun h => by have h' : (n + 1) % 16 = 15 := (hcond0_1 ⟨n + 1, hn⟩).mp h; omega) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
    else if h1 : (n + 1) % 16 = 15 then
      sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1)
        (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (accAt c n (Nat.lt_of_succ_lt hn))
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h))
        (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (accAt c n (Nat.lt_of_succ_lt hn))

theorem accAt_A (c : Dev nD) (t : Fin cfg0.N) (h0 : t.val % 16 = 0) :
    accAt m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0)
      (fun h => by have h' : t.val % 16 = 15 := (hcond0_1 t).mp h; omega) (iblk m c 0 t) (iblk m c 1 t) (iblk m c 2 t) (iblk m c 3 t) (iblk m c 4 t) (iblk m c 5 t) (iblk m c 6 t) := by
  obtain ⟨n, hn⟩ := t
  cases n with
  | zero => exact rfl
  | succ n => exact (dif_pos h0).trans rfl

theorem accAt_B (c : Dev nD) (t : Fin cfg0.N) (h0 : ¬t.val % 16 = 0) (h1 : ¬t.val % 16 = 15) :
    accAt m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h))
      (iblk m c 0 t) (iblk m c 1 t) (iblk m c 2 t) (iblk m c 3 t) (iblk m c 4 t) (iblk m c 5 t) (iblk m c 6 t) (accAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt_C (c : Dev nD) (t : Fin cfg0.N) (h0 : ¬t.val % 16 = 0) (h1 : t.val % 16 = 15) :
    accAt m c t.val t.isLt = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1)
      (iblk m c 0 t) (iblk m c 1 t) (iblk m c 2 t) (iblk m c 3 t) (iblk m c 4 t) (iblk m c 5 t) (iblk m c 6 t) (accAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output window's buffer holds after the body at point `t`: the computed tile at the last column block of a
    row tile; elsewhere the window is idle and this is not consulted. -/
def outAt (c : Dev nD) (t : Fin cfg0.N) : Vec F S1024x256 .f32 :=
  if h1 : t.val % 16 = 15 then
    out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => by have h' : t.val % 16 = 0 := (hcond0_0 t).mp h; omega) ((hcond0_1 t).mpr h1)
      (iblk m c 0 t) (iblk m c 1 t) (iblk m c 2 t) (iblk m c 3 t) (iblk m c 4 t) (iblk m c 5 t) (iblk m c 6 t) (accAt m c (t.val - 1) (Nat.lt_of_le_of_lt (Nat.sub_le _ _) t.isLt))
  else VO0_7.read (Elt F) VO0_7.junk

theorem outAt_C (c : Dev nD) (t : Fin cfg0.N) (h0 : ¬t.val % 16 = 0) (h1 : t.val % 16 = 15) :
    outAt m c t = out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1)
      (iblk m c 0 t) (iblk m c 1 t) (iblk m c 2 t) (iblk m c 3 t) (iblk m c 4 t) (iblk m c 5 t) (iblk m c 6 t) (accAt m c (t.val - 1) (Nat.lt_of_le_of_lt (Nat.sub_le _ _) t.isLt)) :=
  (dif_pos h1).trans rfl

/-! ## The region's invariant -/

/-- Before the first point the accumulator holds anything; before any later point it holds what the point before left. -/
def PhiS (c : Dev nD) : (n : ℕ) → n ≤ cfg0.N → sProp 𝕄
  | 0, _ => (Pipeline.scopedRest (Ix := Unit) (Name := ℕ) (U := UR sig nD τ) (Lvl := ℕ) (Val := Elt F) spec0 c : sProp 𝕄)
  | n + 1, hn => owns (c : Thread nD τ) scM0_0 fullShare (accAt m c n hn)

theorem PhiS_zero (c : Dev nD) (n : ℕ) (h : n ≤ cfg0.N) (hz : n = 0) :
    PhiS m c n h = (Pipeline.scopedRest (Ix := Unit) (Name := ℕ) (U := UR sig nD τ) (Lvl := ℕ) (Val := Elt F) spec0 c : sProp 𝕄) := by
  subst hz; rfl

theorem PhiS_succ (c : Dev nD) (n : ℕ) (hn : n < cfg0.N) :
    PhiS m c (n + 1) hn = owns (c : Thread nD τ) scM0_0 fullShare (accAt m c n hn) := rfl

theorem PhiS_pos (c : Dev nD) (n : ℕ) (h : n ≤ cfg0.N) (hz : n ≠ 0) :
    PhiS m c n h = owns (c : Thread nD τ) scM0_0 fullShare (accAt m c (n - 1) (by omega)) := by
  cases n with
  | zero => exact absurd rfl hz
  | succ n => rfl

/-! ## The proof data -/

/-- The arrays as the region finds them; after the body each input's buffer at its block and the output's at `outAt`;
    the invariant `PhiS`; the feature array and the scale column each held at two half shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := PhiS m c t.val (Nat.le_of_lt_succ t.isLt)
  q w := match w with
    | ⟨0, _⟩ => fullShare
    | ⟨1, _⟩ => fullShare.left
    | ⟨2, _⟩ => fullShare.left
    | ⟨3, _⟩ => fullShare.right
    | ⟨4, _⟩ => fullShare.right
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- The body at any point: the inputs' buffers hold their blocks; the point's position in its row tile says which case
    runs; the invariant hands the accumulator over at what the point before left (at anything where it is reset) and
    takes it back at this point's contents; the output window is handed back untouched unless the tile is computed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 16 = 0
  · have h1 : ¬t.val % 16 = 15 := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [Dat.leavesExact_idle (dats m 0 c) 7 t (idleAt0_7 t (fun h => h1 ((hcond0_1 t).mp h))) (noFlush0_7 t (fun h => h1 ((hcond0_1 t).mp h)))]
    rw [accAt_A m c t h0]
    unfold sout0_A_0; (try dsimp only)
    by_cases hz : t.val = 0
    · rw [PhiS_castSucc m c t, PhiS_zero m c _ _ hz, scopedRest0_owns]
      iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iintro ⟨H0, H1, H2, H3, H4, H5, H6, H7, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      iintro ⟨H0, H1, H2, H3, H4, H5, H6, H7, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun e => h0 (by rw [e])
    by_cases h1 : t.val % 16 = 15
    · rw [show (dats m 0 c).leavesExact 7 t = owns (c : Thread nD τ) (ms0_7 t) fullShare ((dats m 0 c).after 7 t) from by
        unfold Dat.leavesExact; rw [liveAt0_7 t ((hcond0_1 t).mpr h1)], after0_7]
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [accAt_C m c t h0 h1, outAt_C m c t h0 h1]
      unfold out0_C_7 sout0_C_0; (try dsimp only)
      rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_C_7 c _ _ _ _ _ _ _ _ _ _ _ _ _ _ _ _ _ _ _ _ _ _ _ _ _ _ _ _ _)
    · rw [Dat.leavesExact_idle (dats m 0 c) 7 t (idleAt0_7 t (fun h => h1 ((hcond0_1 t).mp h))) (noFlush0_7 t (fun h => h1 ((hcond0_1 t).mp h)))]
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [accAt_B m c t h0 h1]
      unfold sout0_B_0; (try dsimp only)
      rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iintro ⟨H0, H1, H2, H3, H4, H5, H6, H7, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## Entering and leaving the region -/

/-- The six distinct buffers behind the eight windows' arrays, conjoined one by one. -/
theorem bigSep_arrs0 {M : Type} [URA M] (Φ : Ref sig .tc → sProp M) :
    bigSep (Finset.univ.image (Pipeline.arrRef spec0)) Φ
      = iprop(Φ main_arg0 ∗ Φ main_arg2 ∗ Φ main_v0 ∗ Φ main_v2 ∗ Φ main_v1 ∗ Φ main_v3) :=
  bigSep_eq_bigSepL_of_eq [main_arg0, main_arg2, main_v0, main_v2, main_v1, main_v3] (by decide) (by decide) Φ

/-- The distinct buffers behind the windows' arrays, each whole, make the windows' arrays at their shares: the feature
    array and the scale column are each split into their two halves. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_arrs0, bigSep_W0]
  have s0 : (dats m 0 c).share 0 = fullShare := rfl
  have s1 : (dats m 0 c).share 1 = fullShare.left := rfl
  have s2 : (dats m 0 c).share 2 = fullShare.left := rfl
  have s3 : (dats m 0 c).share 3 = fullShare.right := rfl
  have s4 : (dats m 0 c).share 4 = fullShare.right := rfl
  have s5 : (dats m 0 c).share 5 = fullShare := rfl
  have s6 : (dats m 0 c).share 6 = fullShare := rfl
  have s7 : (dats m 0 c).share 7 = fullShare := rfl
  iintro ⟨H0, H2, Hv0, Hv2, Hv1, Hv3⟩
  ihave ⟨H2a, H2b⟩ := (pointsTo_share (PosShare.mem_left_op_right fullShare)).1 $$ H2
  ihave ⟨Hv0a, Hv0b⟩ := (pointsTo_share (PosShare.mem_left_op_right fullShare)).1 $$ Hv0
  isplitl [H0]
  · rw [show (cfg0.win 0).arr.view.set = Finset.univ from (arr_whole0 0).set_eq_univ, s0]; iexact H0
  isplitl [H2a]
  · rw [show (cfg0.win 1).arr.view.set = Finset.univ from (arr_whole0 1).set_eq_univ, s1]; iexact H2a
  isplitl [Hv0a]
  · rw [show (cfg0.win 2).arr.view.set = Finset.univ from (arr_whole0 2).set_eq_univ, s2]; iexact Hv0a
  isplitl [H2b]
  · rw [show (cfg0.win 3).arr.view.set = Finset.univ from (arr_whole0 3).set_eq_univ, s3]; iexact H2b
  isplitl [Hv0b]
  · rw [show (cfg0.win 4).arr.view.set = Finset.univ from (arr_whole0 4).set_eq_univ, s4]; iexact Hv0b
  isplitl [Hv2]
  · rw [show (cfg0.win 5).arr.view.set = Finset.univ from (arr_whole0 5).set_eq_univ, s5]; iexact Hv2
  isplitl [Hv1]
  · rw [show (cfg0.win 6).arr.view.set = Finset.univ from (arr_whole0 6).set_eq_univ, s6]; iexact Hv1
  rw [show (cfg0.win 7).arr.view.set = Finset.univ from (arr_whole0 7).set_eq_univ, s7]; iexact Hv3

/-- What the launch hands the region is the invariant before the first point. -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulator back, its contents forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 256 := N_0; omega), scopedRest0_owns]
  iintro HS0
  iexists _; iexact HS0

/-! ## The run and the frame -/

set_option backward.isDefEq.respectTransparency.types false in
/-- Every weakly fair execution of @main terminates, and in every final state each window's array holds what the
    write-backs leave and every other unscoped buffer what the region found. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hin := hin m) (hout := hout m)

end Cert.KernelIdeal.Fr

end
-- ==== Proof.KI.Args.lean ====
/-
  The region finds the five argument arrays as they were launched: the three layout operations before it write only
  their own results (the scale column, the bias row, the transposed weight).
-/
import proofs.«166288_j34239479283727_1_alg».proof.Proof.KI.Base
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three layout operations write their own results only: the column, the row and the transposed weight. -/
theorem layout_writes :
    (hostOps0 : List (HloOp τ sig (Elt F))).Forall fun op =>
      op.writes ⊆ ([main_v0, main_v1, main_v2].map (Proc.devRef (τ := τ) .tc)).toFinset := by
  refine ⟨?_, ?_, ?_⟩ <;>
    exact Finset.singleton_subset_iff.mpr (List.mem_toFinset.mpr (List.mem_map_of_mem (by decide)))

/-- No layout operation writes an argument: the region finds each as launched. -/
theorem V_main_arg0 (c : Dev nD) : V m c main_arg0 = m ((c : Thread nD τ).loc main_arg0) :=
  StableHlo.after_of_writes_sub (r := main_arg0) hostOps0 _ layout_writes (by decide)
theorem V_main_arg1 (c : Dev nD) : V m c main_arg1 = m ((c : Thread nD τ).loc main_arg1) :=
  StableHlo.after_of_writes_sub (r := main_arg1) hostOps0 _ layout_writes (by decide)
theorem V_main_arg2 (c : Dev nD) : V m c main_arg2 = m ((c : Thread nD τ).loc main_arg2) :=
  StableHlo.after_of_writes_sub (r := main_arg2) hostOps0 _ layout_writes (by decide)
theorem V_main_arg3 (c : Dev nD) : V m c main_arg3 = m ((c : Thread nD τ).loc main_arg3) :=
  StableHlo.after_of_writes_sub (r := main_arg3) hostOps0 _ layout_writes (by decide)
theorem V_main_arg4 (c : Dev nD) : V m c main_arg4 = m ((c : Thread nD τ).loc main_arg4) :=
  StableHlo.after_of_writes_sub (r := main_arg4) hostOps0 _ layout_writes (by decide)

end Cert.KernelIdeal.Fr

end
-- ==== Proof.KI.FrameClaim.lean ====
/-
  The frame claim: every weakly fair execution terminates without a fault and the five argument arrays end unchanged.

  The adjacency and the features are arrays of input windows, which the pipeline never writes; the scale vector, the weight
  and the bias are staged by no window (their reshaped or transposed copies are), and every such buffer ends as the
  region found it. Each was found as launched.
-/
import proofs.«166288_j34239479283727_1_alg».proof.Proof.KI.Frame
import proofs.«166288_j34239479283727_1_alg».proof.Proof.KI.Args

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.KernelIdeal.Fr

end
-- ==== Proof.KI.Pieces.lean ====
/-
  What each case of the body leaves, as the body's stored values.

  The accumulator after the reset-and-add case is the add step over the zero tile; after the other two cases it is the
  add step over what the accumulator held. The output tile of the last column block is computed from the accumulator
  as the add step has just left it. The add step takes the column block's scale and feature blocks and the adjacency
  block; the output tile takes the row tile's scale and feature blocks, the transposed weight and the bias row.
-/
import proofs.«166288_j34239479283727_1_alg».proof.Proof.KI.Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The offsets of every store and load of the body are zero in both axes. -/
private theorem hz : (![0, 0] : Fin 2 → Nat) = fun _ => 0 := funext fun a => by fin_cases a <;> rfl

/-- The reset-and-add case leaves the add step over the zero tile. -/
theorem sout0_A_0_eq (c : Dev nD) (i : grid0.Coords) (arg2 : Memref sig .tc .vmem S1024x1024 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .f32) (harg5 : arg5.IsWhole) (arg6 : Memref sig .tc .vmem S1024x1 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x512 .f32) (harg10 : arg10.IsWhole) (hc0 : cond0_0 i) (hc1 : ¬cond0_1 i)
    (x0 : Vec F S1024x1024 .f32) (x1 : Vec F S1024x512 .f32) (x2 : Vec F S1024x1 .f32) (x3 : Vec F S1024x512 .f32) (x4 : Vec F S1024x1 .f32) (x5 : Vec F S512x256 .f32) (x6 : Vec F S1x256 .f32) :
    sout0_A_0 c i arg2 harg2 arg3 harg3 arg4 harg4 arg5 harg5 arg6 harg6 arg7 harg7 arg8 harg8 arg9 harg9 arg10 harg10 hc0 hc1 x0 x1 x2 x3 x4 x5 x6 = k0_pay2 x2 x1 x0 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S1024x512) hz, View.readCov_unit_zero (S := S1024x512) _ hz]
  simp only [View.readAt_eq_ld, harg2.read_unread, harg3.read_unread, harg4.read_unread,
    View.ld_unit_zero (S := S1024x1024) hz, View.ld_unit_zero (S := S1024x512) hz, View.ld_unit_zero (S := S1024x1) hz]

/-- The add case leaves the add step over what the accumulator held. -/
theorem sout0_B_0_eq (c : Dev nD) (i : grid0.Coords) (arg2 : Memref sig .tc .vmem S1024x1024 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .f32) (harg5 : arg5.IsWhole) (arg6 : Memref sig .tc .vmem S1024x1 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x512 .f32) (harg10 : arg10.IsWhole) (hc0 : ¬cond0_0 i) (hc1 : ¬cond0_1 i)
    (x0 : Vec F S1024x1024 .f32) (x1 : Vec F S1024x512 .f32) (x2 : Vec F S1024x1 .f32) (x3 : Vec F S1024x512 .f32) (x4 : Vec F S1024x1 .f32) (x5 : Vec F S512x256 .f32) (x6 : Vec F S1x256 .f32) (xs0 : Vec F S1024x512 .f32) :
    sout0_B_0 c i arg2 harg2 arg3 harg3 arg4 harg4 arg5 harg5 arg6 harg6 arg7 harg7 arg8 harg8 arg9 harg9 arg10 harg10 hc0 hc1 x0 x1 x2 x3 x4 x5 x6 xs0 = k0_pay2 x2 x1 x0 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero (S := S1024x512) hz]
  simp only [View.readAt_eq_ld, harg2.read_unread, harg3.read_unread, harg4.read_unread, harg10.read_unread,
    View.ld_unit_zero (S := S1024x1024) hz, View.ld_unit_zero (S := S1024x512) hz, View.ld_unit_zero (S := S1024x1) hz]

/-- So does the add-and-output case, -/
theorem sout0_C_0_eq (c : Dev nD) (i : grid0.Coords) (arg2 : Memref sig .tc .vmem S1024x1024 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .f32) (harg5 : arg5.IsWhole) (arg6 : Memref sig .tc .vmem S1024x1 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x512 .f32) (harg10 : arg10.IsWhole) (hc0 : ¬cond0_0 i) (hc1 : cond0_1 i)
    (x0 : Vec F S1024x1024 .f32) (x1 : Vec F S1024x512 .f32) (x2 : Vec F S1024x1 .f32) (x3 : Vec F S1024x512 .f32) (x4 : Vec F S1024x1 .f32) (x5 : Vec F S512x256 .f32) (x6 : Vec F S1x256 .f32) (xs0 : Vec F S1024x512 .f32) :
    sout0_C_0 c i arg2 harg2 arg3 harg3 arg4 harg4 arg5 harg5 arg6 harg6 arg7 harg7 arg8 harg8 arg9 harg9 arg10 harg10 hc0 hc1 x0 x1 x2 x3 x4 x5 x6 xs0 = k0_pay2 x2 x1 x0 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero (S := S1024x512) hz]
  simp only [View.readAt_eq_ld, harg2.read_unread, harg3.read_unread, harg4.read_unread, harg10.read_unread,
    View.ld_unit_zero (S := S1024x1024) hz, View.ld_unit_zero (S := S1024x512) hz, View.ld_unit_zero (S := S1024x1) hz]

/-- and its output tile is computed from that. -/
theorem out0_C_7_eq (c : Dev nD) (i : grid0.Coords) (arg2 : Memref sig .tc .vmem S1024x1024 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .f32) (harg5 : arg5.IsWhole) (arg6 : Memref sig .tc .vmem S1024x1 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x512 .f32) (harg10 : arg10.IsWhole) (hc0 : ¬cond0_0 i) (hc1 : cond0_1 i)
    (x0 : Vec F S1024x1024 .f32) (x1 : Vec F S1024x512 .f32) (x2 : Vec F S1024x1 .f32) (x3 : Vec F S1024x512 .f32) (x4 : Vec F S1024x1 .f32) (x5 : Vec F S512x256 .f32) (x6 : Vec F S1x256 .f32) (xs0 : Vec F S1024x512 .f32) :
    out0_C_7 c i arg2 harg2 arg3 harg3 arg4 harg4 arg5 harg5 arg6 harg6 arg7 harg7 arg8 harg8 arg9 harg9 arg10 harg10 hc0 hc1 x0 x1 x2 x3 x4 x5 x6 xs0 = k0_pay3 x4 x3 x4 (k0_pay2 x2 x1 x0 xs0) x5 x6 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero (S := S1024x256) hz]
  simp only [View.readAt_eq_ld, View.readCov_unit_zero (S := S1024x512) _ hz, harg2.read_unread, harg3.read_unread,
    harg4.read_unread, harg5.read_unread, harg6.read_unread, harg7.read_unread, harg8.read_unread, harg10.read_unread,
    View.ld_unit_zero (S := S1024x1024) hz, View.ld_unit_zero (S := S1024x512) hz, View.ld_unit_zero (S := S1024x1) hz,
    View.ld_unit_zero (S := S512x256) hz, View.ld_unit_zero (S := S1x256) hz]

end Cert.KernelIdeal.Fr

end
-- ==== Proof.LibKeepdims.lean ====
/-
  Column and unit-axis layouts read at an index, by coordinates.

  A vector of `a` entries viewed as a column `[a, 1]`, a column `[a, 1]` broadcast across `b` columns, a
  `[1, 1, a]` block viewed as a vector, and an `[a, b]` array given a middle unit axis: each only re-addresses its operand, and each is read here at an index written
  by its coordinates, so that a chain of them rewrites to the operand at one explicit index. They stand beside the
  library's row forms (`[a]` as `[1, a]`, a row `[1, b]` broadcast down `a` rows).
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a]` array cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a, b]` array cast to `[a, 1, b]` reads, at `(i, u, j)`, the operand at `(i, j)`, whatever the unit coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.KI.Blocks.lean ====
/-
  The input windows' blocks read at coordinates, in terms of the launch contents of the five argument arrays.

  Point t of the 16 × 16 grid is row tile t / 16 and column block t % 16. The adjacency window's block is rows
  1024·(t / 16) + p and columns 1024·(t % 16) + q of the adjacency; the feature and scale windows indexed by the column
  block read rows 1024·(t % 16) + q, the ones indexed by the row tile read rows 1024·(t / 16) + p; the weight and bias
  windows read the whole transposed weight and the bias row. The scale column, the bias row and the transposed weight are
  the host's layout operations on the arguments: a vector as a column, a vector as a row, a transposition.
-/
import proofs.«166288_j34239479283727_1_alg».proof.Proof.KI.Args
import proofs.«166288_j34239479283727_1_alg».proof.Proof.LibKeepdims
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- Row `p` of the row tile of point `t`, among the 16384 rows. -/
def rowAt (t : Fin cfg0.N) (p : Fin 1024) : Fin 16384 :=
  ⟨1024 * (t.val / 16) + p.val, by have := lt_of_lt_of_eq t.isLt (show cfg0.N = 256 from N_0); have := p.isLt; omega⟩

/-- Position `q` of the column block of point `t`, among the 16384 columns. -/
def colAt (t : Fin cfg0.N) (q : Fin 1024) : Fin 16384 :=
  ⟨1024 * (t.val % 16) + q.val, by have := q.isLt; omega⟩

/-- The blocks at their literal vector types. -/
abbrev blkA (c : Dev nD) (t : Fin cfg0.N) : Vec F S1024x1024 .f32 := iblk m c 0 t
abbrev blkXk (c : Dev nD) (t : Fin cfg0.N) : Vec F S1024x512 .f32 := iblk m c 1 t
abbrev blkDk (c : Dev nD) (t : Fin cfg0.N) : Vec F S1024x1 .f32 := iblk m c 2 t
abbrev blkXi (c : Dev nD) (t : Fin cfg0.N) : Vec F S1024x512 .f32 := iblk m c 3 t
abbrev blkDi (c : Dev nD) (t : Fin cfg0.N) : Vec F S1024x1 .f32 := iblk m c 4 t
abbrev blkW (c : Dev nD) (t : Fin cfg0.N) : Vec F S512x256 .f32 := iblk m c 5 t
abbrev blkB (c : Dev nD) (t : Fin cfg0.N) : Vec F S1x256 .f32 := iblk m c 6 t

/-- The launch contents of the five arguments at their literal vector types. -/
abbrev argA (c : Dev nD) : Vec F S16384x16384 .f32 := m ((c : Thread nD τ).loc main_arg0)
abbrev argD (c : Dev nD) : Vec F S16384 .f32 := m ((c : Thread nD τ).loc main_arg1)
abbrev argX (c : Dev nD) : Vec F S16384x512 .f32 := m ((c : Thread nD τ).loc main_arg2)
abbrev argW (c : Dev nD) : Vec F S256x512 .f32 := m ((c : Thread nD τ).loc main_arg3)
abbrev argB (c : Dev nD) : Vec F S256 .f32 := m ((c : Thread nD τ).loc main_arg4)

/-! ## The layout operations' results, read at an index -/

/-- The scale column is the scale vector, entry by entry. -/
private theorem V_col_apply (c : Dev nD) (r : Fin 16384) (u : Fin 1) :
    (V m c main_v0 : S16384x1.Idx → Elt F .f32) (ix2 r u) = argD m c (ix1 r) := by
  have e : (V m c main_v0 : S16384x1.Idx → Elt F .f32)
      = shapeCast S16384x1 (m ((c : Thread nD τ).loc main_arg1)) shapeCasts_S16384_S16384x1 := by
    dsimp only [V, hostOps0]; after_results; rfl
  rw [e]
  exact Cert.Keepdims.shapeCast_a_a1_apply _ _ r u

/-- The bias row is the bias vector, entry by entry. -/
private theorem V_row_apply (c : Dev nD) (u : Fin 1) (o : Fin 256) :
    (V m c main_v1 : S1x256.Idx → Elt F .f32) (ix2 u o) = argB m c (ix1 o) := by
  have e : (V m c main_v1 : S1x256.Idx → Elt F .f32)
      = shapeCast S1x256 (m ((c : Thread nD τ).loc main_arg4)) shapeCasts_S256_S1x256 := by
    dsimp only [V, hostOps0]; after_results; rfl
  rw [e]
  refine shapeCast_apply _ _ _ (ix1 o) ?_
  have hu : u.val = 0 := by omega
  rw [Shape.rowMajor_val_two, Shape.rowMajor_val_one]
  show o.val = u.val * 256 + o.val
  rw [hu, Nat.zero_mul, Nat.zero_add]

/-- The transposed weight at `(f, o)` is the weight at `(o, f)`. -/
private theorem V_tr_apply (c : Dev nD) (f : Fin 512) (o : Fin 256) :
    (V m c main_v2 : S512x256.Idx → Elt F .f32) (ix2 f o) = argW m c (ix2 o f) := by
  have e : (V m c main_v2 : S512x256.Idx → Elt F .f32)
      = transpose S512x256 [1, 0] (m ((c : Thread nD τ).loc main_arg3)) transposes_S256x512_S512x256_1_0 := by
    dsimp only [V, hostOps0]; after_results
  rw [e]
  exact transpose_apply [1, 0] _ transposes_S256x512_S512x256_1_0 (ix2 f o) (ix2 o f) (fun b => match b with
    | ⟨0, _⟩ => rfl
    | ⟨1, _⟩ => rfl)

/-! ## The index maps over the grid, in closed form -/

/-- The adjacency window moves with both grid coordinates. -/
private theorem idxA : ∀ t : Fin cfg0.N, win0_0.index t (0 : Fin 2) = t.val / 16 ∧ win0_0.index t (1 : Fin 2) = t.val % 16 :=
  (by decide +kernel : ∀ t : Fin grid0.N, _)
/-- The feature and scale windows of the column block move with the column coordinate. -/
private theorem idxXk : ∀ t : Fin cfg0.N, win0_1.index t (0 : Fin 2) = t.val % 16 ∧ win0_1.index t (1 : Fin 2) = 0 :=
  (by decide +kernel : ∀ t : Fin grid0.N, _)
private theorem idxDk : ∀ t : Fin cfg0.N, win0_2.index t (0 : Fin 2) = t.val % 16 ∧ win0_2.index t (1 : Fin 2) = 0 :=
  (by decide +kernel : ∀ t : Fin grid0.N, _)
/-- The feature and scale windows of the row tile move with the row coordinate. -/
private theorem idxXi : ∀ t : Fin cfg0.N, win0_3.index t (0 : Fin 2) = t.val / 16 ∧ win0_3.index t (1 : Fin 2) = 0 :=
  (by decide +kernel : ∀ t : Fin grid0.N, _)
private theorem idxDi : ∀ t : Fin cfg0.N, win0_4.index t (0 : Fin 2) = t.val / 16 ∧ win0_4.index t (1 : Fin 2) = 0 :=
  (by decide +kernel : ∀ t : Fin grid0.N, _)
/-- The weight and bias windows stay at the one block that is their whole array. -/
private theorem idxW : ∀ t : Fin cfg0.N, win0_5.index t (0 : Fin 2) = 0 ∧ win0_5.index t (1 : Fin 2) = 0 :=
  (by decide +kernel : ∀ t : Fin grid0.N, _)
private theorem idxB : ∀ t : Fin cfg0.N, win0_6.index t (0 : Fin 2) = 0 ∧ win0_6.index t (1 : Fin 2) = 0 :=
  (by decide +kernel : ∀ t : Fin grid0.N, _)

/-! ## The blocks

  A block's entry at a coordinate is the array's entry at block index × block size + the coordinate, axis by axis. -/

/-- The adjacency block. -/
theorem blkA_apply (c : Dev nD) (t : Fin cfg0.N) (p q : Fin 1024) :
    blkA m c t (ix2 p q) = argA m c (ix2 (rowAt t p) (colAt t q)) := by
  obtain ⟨e0, e1⟩ := idxA t
  refine Eq.trans ?_ (congrFun (V_main_arg0 m c) _)
  show ((cfg0.win 0).blk t).view.read (Elt F) (V m c (Pipeline.arrRef spec0 0)) (ix2 p q) = _
  rw [View.read_apply]
  show V m c main_arg0 (((cfg0.win 0).blk t).view.emb (ix2 p q)) = V m c main_arg0 (ix2 (rowAt t p) (colAt t q))
  refine congrArg _ (funext fun a => Fin.ext ?_)
  match a with
  | ⟨0, _⟩ =>
    show win0_0.index t (0 : Fin 2) * 1024 + 1 * p.val = 1024 * (t.val / 16) + p.val
    omega
  | ⟨1, _⟩ =>
    show win0_0.index t (1 : Fin 2) * 1024 + 1 * q.val = 1024 * (t.val % 16) + q.val
    omega

/-- The feature block of the column block. -/
theorem blkXk_apply (c : Dev nD) (t : Fin cfg0.N) (q : Fin 1024) (f : Fin 512) :
    blkXk m c t (ix2 q f) = argX m c (ix2 (colAt t q) f) := by
  obtain ⟨e0, e1⟩ := idxXk t
  refine Eq.trans ?_ (congrFun (V_main_arg2 m c) _)
  show ((cfg0.win 1).blk t).view.read (Elt F) (V m c (Pipeline.arrRef spec0 1)) (ix2 q f) = _
  rw [View.read_apply]
  show V m c main_arg2 (((cfg0.win 1).blk t).view.emb (ix2 q f)) = V m c main_arg2 (ix2 (colAt t q) f)
  refine congrArg _ (funext fun a => Fin.ext ?_)
  match a with
  | ⟨0, _⟩ =>
    show win0_1.index t (0 : Fin 2) * 1024 + 1 * q.val = 1024 * (t.val % 16) + q.val
    omega
  | ⟨1, _⟩ =>
    show win0_1.index t (1 : Fin 2) * 512 + 1 * f.val = f.val
    omega

/-- The scale block of the column block. -/
theorem blkDk_apply (c : Dev nD) (t : Fin cfg0.N) (q : Fin 1024) :
    blkDk m c t (ix2 q (0 : Fin 1)) = argD m c (ix1 (colAt t q)) := by
  obtain ⟨e0, e1⟩ := idxDk t
  refine Eq.trans ?_ (V_col_apply m c (colAt t q) 0)
  show ((cfg0.win 2).blk t).view.read (Elt F) (V m c (Pipeline.arrRef spec0 2)) (ix2 q (0 : Fin 1)) = _
  rw [View.read_apply]
  show V m c main_v0 (((cfg0.win 2).blk t).view.emb (ix2 q (0 : Fin 1))) = V m c main_v0 (ix2 (colAt t q) (0 : Fin 1))
  refine congrArg _ (funext fun a => Fin.ext ?_)
  match a with
  | ⟨0, _⟩ =>
    show win0_2.index t (0 : Fin 2) * 1024 + 1 * q.val = 1024 * (t.val % 16) + q.val
    omega
  | ⟨1, _⟩ =>
    show win0_2.index t (1 : Fin 2) * 1 + 1 * 0 = 0
    omega

/-- The feature block of the row tile. -/
theorem blkXi_apply (c : Dev nD) (t : Fin cfg0.N) (p : Fin 1024) (f : Fin 512) :
    blkXi m c t (ix2 p f) = argX m c (ix2 (rowAt t p) f) := by
  obtain ⟨e0, e1⟩ := idxXi t
  refine Eq.trans ?_ (congrFun (V_main_arg2 m c) _)
  show ((cfg0.win 3).blk t).view.read (Elt F) (V m c (Pipeline.arrRef spec0 3)) (ix2 p f) = _
  rw [View.read_apply]
  show V m c main_arg2 (((cfg0.win 3).blk t).view.emb (ix2 p f)) = V m c main_arg2 (ix2 (rowAt t p) f)
  refine congrArg _ (funext fun a => Fin.ext ?_)
  match a with
  | ⟨0, _⟩ =>
    show win0_3.index t (0 : Fin 2) * 1024 + 1 * p.val = 1024 * (t.val / 16) + p.val
    omega
  | ⟨1, _⟩ =>
    show win0_3.index t (1 : Fin 2) * 512 + 1 * f.val = f.val
    omega

/-- The scale block of the row tile. -/
theorem blkDi_apply (c : Dev nD) (t : Fin cfg0.N) (p : Fin 1024) :
    blkDi m c t (ix2 p (0 : Fin 1)) = argD m c (ix1 (rowAt t p)) := by
  obtain ⟨e0, e1⟩ := idxDi t
  refine Eq.trans ?_ (V_col_apply m c (rowAt t p) 0)
  show ((cfg0.win 4).blk t).view.read (Elt F) (V m c (Pipeline.arrRef spec0 4)) (ix2 p (0 : Fin 1)) = _
  rw [View.read_apply]
  show V m c main_v0 (((cfg0.win 4).blk t).view.emb (ix2 p (0 : Fin 1))) = V m c main_v0 (ix2 (rowAt t p) (0 : Fin 1))
  refine congrArg _ (funext fun a => Fin.ext ?_)
  match a with
  | ⟨0, _⟩ =>
    show win0_4.index t (0 : Fin 2) * 1024 + 1 * p.val = 1024 * (t.val / 16) + p.val
    omega
  | ⟨1, _⟩ =>
    show win0_4.index t (1 : Fin 2) * 1 + 1 * 0 = 0
    omega

/-- The transposed weight. -/
theorem blkW_apply (c : Dev nD) (t : Fin cfg0.N) (f : Fin 512) (o : Fin 256) :
    blkW m c t (ix2 f o) = argW m c (ix2 o f) := by
  obtain ⟨e0, e1⟩ := idxW t
  refine Eq.trans ?_ (V_tr_apply m c f o)
  show ((cfg0.win 5).blk t).view.read (Elt F) (V m c (Pipeline.arrRef spec0 5)) (ix2 f o) = _
  rw [View.read_apply]
  show V m c main_v2 (((cfg0.win 5).blk t).view.emb (ix2 f o)) = V m c main_v2 (ix2 f o)
  refine congrArg _ (funext fun a => Fin.ext ?_)
  match a with
  | ⟨0, _⟩ =>
    show win0_5.index t (0 : Fin 2) * 512 + 1 * f.val = f.val
    omega
  | ⟨1, _⟩ =>
    show win0_5.index t (1 : Fin 2) * 256 + 1 * o.val = o.val
    omega

/-- The bias row. -/
theorem blkB_apply (c : Dev nD) (t : Fin cfg0.N) (o : Fin 256) :
    blkB m c t (ix2 (0 : Fin 1) o) = argB m c (ix1 o) := by
  obtain ⟨e0, e1⟩ := idxB t
  refine Eq.trans ?_ (V_row_apply m c 0 o)
  show ((cfg0.win 6).blk t).view.read (Elt F) (V m c (Pipeline.arrRef spec0 6)) (ix2 (0 : Fin 1) o) = _
  rw [View.read_apply]
  show V m c main_v1 (((cfg0.win 6).blk t).view.emb (ix2 (0 : Fin 1) o)) = V m c main_v1 (ix2 (0 : Fin 1) o)
  refine congrArg _ (funext fun a => Fin.ext ?_)
  match a with
  | ⟨0, _⟩ =>
    show win0_6.index t (0 : Fin 2) * 1 + 1 * 0 = 0
    omega
  | ⟨1, _⟩ =>
    show win0_6.index t (1 : Fin 2) * 256 + 1 * o.val = o.val
    omega

end Cert.KernelIdeal.Fr

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.Payloads.lean ====
/-
  The body's three stored values, read at an index on the extended reals.

  The reset stores zero. The accumulation stores, at row p and feature c of the tile, the accumulator's entry plus the
  sum over the block's 1024 columns q of the adjacency entry (p, q) times the scaled feature (scale q · feature (q, c)).
  The output tile stores, at row p and output o, the sum over the 512 features c of
  (scale p · (accumulator (p, c) + scale p · feature (p, c))) times the transposed weight (c, o), plus the bias row at o.
  Changes of float format are the identity on the extended reals, and a product into a zero accumulator is the plain sum.
-/
import proofs.«166288_j34239479283727_1_alg».proof.Proof.Gen.KernelIdeal.Skeleton
import proofs.«166288_j34239479283727_1_alg».proof.Proof.LibPlainDot
import proofs.«166288_j34239479283727_1_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.Gcn.Pay

open Idealize.ShloMosaic Idealize.ShloMosaic.ValueIdx Cert.KernelIdeal Cert.KernelIdeal.Gen

/-- The first product's dimension numbers are the plain ones: rows by contraction, contraction by columns. -/
private theorem dot2_plain :
    dot_S1024x1024_S1024x512_S1024x512_1_0_0_1_n_n = DotDims.plain 1024 1024 512 := rfl

/-- So are the second product's. -/
private theorem dot3_plain :
    dot_S1024x512_S512x256_S1024x256_1_0_0_1_n_n = DotDims.plain 1024 512 256 := rfl

/-- A column of scales broadcast across the 512 features reads, at row q and feature c, the scale of row q. -/
private theorem col_apply (hd : FVec Ideal S1024x1 .f32) (q : Fin 1024) (c : Fin 512) :
    broadcastTo S1024x512 (shapeCast S1024x1 hd Facts₀.shapeCasts_S1024x1_S1024x1) Facts₀.broadcasts_S1024x1_S1024x512 (ix2 q c)
      = hd (ix2 q (0 : Fin 1)) := by
  refine (Cert.Keepdims.broadcastTo_a1_ab_apply _ _ q c).trans ?_
  exact congrFun (shapeCast_self hd _) (ix2 q (0 : Fin 1))

/-- The scaled feature at row q and feature c: the row's scale times the feature. -/
private theorem scaled_apply (hd : FVec Ideal S1024x1 .f32) (ft : FVec Ideal S1024x512 .f32) (q : Fin 1024) (c : Fin 512) :
    mulf (broadcastTo S1024x512 (shapeCast S1024x1 hd Facts₀.shapeCasts_S1024x1_S1024x1) Facts₀.broadcasts_S1024x1_S1024x512) ft (ix2 q c)
      = hd (ix2 q (0 : Fin 1)) * ft (ix2 q c) := by
  refine (mulf_apply _ _ _).trans ?_
  exact congrArg (fun t => t * ft (ix2 q c)) (col_apply hd q c)

/-- The reset stores zero everywhere. -/
theorem pay1_apply (j : S1024x512.Idx) : k0_pay1 (F := Ideal) j = 0 := by
  unfold k0_pay1
  refine (congrFun (shapeCast_self _ _) j).trans ?_
  exact Ideal.ofBits_zero_f32

/-- The accumulation step at row `p`, feature `c`: the accumulator plus one block's contribution. -/
theorem pay2_apply (hd : Vec Ideal S1024x1 .f32) (ft : Vec Ideal S1024x512 .f32) (a : Vec Ideal S1024x1024 .f32)
    (acc : Vec Ideal S1024x512 .f32) (p : Fin 1024) (c : Fin 512) :
    k0_pay2 (F := Ideal) hd ft a acc (ix2 p c)
      = acc (ix2 p c) + ∑ q : Fin 1024, a (ix2 p q) * (hd (ix2 q (0 : Fin 1)) * ft (ix2 q c)) := by
  unfold k0_pay2
  refine (congrFun (shapeCast_self _ _) (ix2 p c)).trans ?_
  refine (addf_apply _ _ _).trans ?_
  refine congrArg (fun t => acc (ix2 p c) + t) ?_
  refine (Cert.PlainDot.matmul_zero_apply _ dot2_plain none _ _ (ix2 p c)).trans ?_
  refine Finset.sum_congr rfl fun q _ => ?_
  exact congrArg (fun t => a (ix2 p q) * t) (scaled_apply hd ft q c)

/-- The output tile at row `p`, output feature `o`. -/
theorem pay3_apply (hd : Vec Ideal S1024x1 .f32) (ft : Vec Ideal S1024x512 .f32) (hd' : Vec Ideal S1024x1 .f32)
    (acc : Vec Ideal S1024x512 .f32) (wt : Vec Ideal S512x256 .f32) (bb : Vec Ideal S1x256 .f32) (p : Fin 1024) (o : Fin 256) :
    k0_pay3 (F := Ideal) hd ft hd' acc wt bb (ix2 p o)
      = (∑ c : Fin 512, (hd' (ix2 p (0 : Fin 1)) * (acc (ix2 p c) + hd (ix2 p (0 : Fin 1)) * ft (ix2 p c))) * wt (ix2 c o))
          + bb (ix2 (0 : Fin 1) o) := by
  unfold k0_pay3
  refine (addf_apply _ _ _).trans ?_
  refine congr (congrArg HAdd.hAdd ?_) ?_
  · refine (Cert.PlainDot.matmul_zero_apply _ dot3_plain none _ _ (ix2 p o)).trans ?_
    refine Finset.sum_congr rfl fun c _ => ?_
    refine congr (congrArg HMul.hMul ?_) ?_
    · refine (mulf_apply _ _ _).trans ?_
      refine congr (congrArg HMul.hMul (col_apply hd' p c)) ?_
      refine (addf_apply _ _ _).trans ?_
      exact congrArg (fun t => acc (ix2 p c) + t) (scaled_apply hd ft p c)
    · exact congrFun (shapeCast_self wt _) (ix2 c o)
  · refine (broadcastTo_1b_ab_apply _ _ p o).trans ?_
    exact congrFun (shapeCast_self bb _) (ix2 (0 : Fin 1) o)

end Cert.Gcn.Pay

end
-- ==== Proof.Spec.lean ====
/-
  What both programs compute, as one function of the five argument arrays, index by index on the extended reals.

  With `d` the per-node scale, `X` the node features, `A` the dense adjacency, `W` the layer's weight and `b` its bias:
    scaled j c   = d j · X j c                                  (the features scaled row by row)
    gathered r c = Σ_j A r j · scaled j c                        (one row of A against a column of the scaled features)
    hidden r c   = d r · (gathered r c + scaled r c)            (the self term added, then scaled again)
    result r o   = Σ_c hidden r c · W o c + b o                  (the linear layer).
  The kernel forms `gathered` as sixteen partial sums over blocks of 1024 columns of A, added one after the other into
  an accumulator that starts at zero; on the extended reals addition is commutative and associative, so the
  accumulated value is the whole sum (`blockAcc_full`), with no finiteness asked of the summands.
-/
import Idealize.ShloMosaic.PureOps.Ideal
import Idealize.ShloMosaic.Lib.ValueIdx
import Mathlib.Algebra.BigOperators.Fin
import Mathlib.Algebra.BigOperators.Intervals

noncomputable section

namespace Cert.Gcn

open Idealize.ShloMosaic Idealize.ShloMosaic.ValueIdx

/-- Row `j` of the features times the `j`-th scale. -/
def scaled (d : FVec Ideal ⟨1, ![16384]⟩ .f32) (X : FVec Ideal ⟨2, ![16384, 512]⟩ .f32) (j : Fin 16384) (c : Fin 512) : EReal :=
  d (ix1 j) * X (ix2 j c)

/-- Row `r` of the adjacency against column `c` of the scaled features. -/
def gathered (A : FVec Ideal ⟨2, ![16384, 16384]⟩ .f32) (d : FVec Ideal ⟨1, ![16384]⟩ .f32) (X : FVec Ideal ⟨2, ![16384, 512]⟩ .f32)
    (r : Fin 16384) (c : Fin 512) : EReal :=
  ∑ j : Fin 16384, A (ix2 r j) * scaled d X j c

/-- The hidden features: the gathered row plus the node's own scaled row, scaled once more. -/
def hidden (A : FVec Ideal ⟨2, ![16384, 16384]⟩ .f32) (d : FVec Ideal ⟨1, ![16384]⟩ .f32) (X : FVec Ideal ⟨2, ![16384, 512]⟩ .f32)
    (r : Fin 16384) (c : Fin 512) : EReal :=
  d (ix1 r) * (gathered A d X r c + scaled d X r c)

/-- The layer's result at row `r`, output feature `o`. -/
def resultAt (A : FVec Ideal ⟨2, ![16384, 16384]⟩ .f32) (d : FVec Ideal ⟨1, ![16384]⟩ .f32) (X : FVec Ideal ⟨2, ![16384, 512]⟩ .f32)
    (W : FVec Ideal ⟨2, ![256, 512]⟩ .f32) (b : FVec Ideal ⟨1, ![256]⟩ .f32) (r : Fin 16384) (o : Fin 256) : EReal :=
  (∑ c : Fin 512, hidden A d X r c * W (ix2 o c)) + b (ix1 o)

/-- The layer's result as an array. -/
def result (A : FVec Ideal ⟨2, ![16384, 16384]⟩ .f32) (d : FVec Ideal ⟨1, ![16384]⟩ .f32) (X : FVec Ideal ⟨2, ![16384, 512]⟩ .f32)
    (W : FVec Ideal ⟨2, ![256, 512]⟩ .f32) (b : FVec Ideal ⟨1, ![256]⟩ .f32) : FVec Ideal ⟨2, ![16384, 256]⟩ .f32 :=
  fun i => resultAt A d X W b ⟨(i 0).val, (i 0).isLt⟩ ⟨(i 1).val, (i 1).isLt⟩

theorem result_ix2 (A : FVec Ideal ⟨2, ![16384, 16384]⟩ .f32) (d : FVec Ideal ⟨1, ![16384]⟩ .f32) (X : FVec Ideal ⟨2, ![16384, 512]⟩ .f32)
    (W : FVec Ideal ⟨2, ![256, 512]⟩ .f32) (b : FVec Ideal ⟨1, ![256]⟩ .f32) (r : Fin 16384) (o : Fin 256) :
    result A d X W b (ix2 r o) = resultAt A d X W b r o := rfl

/-! ## Sixteen blocks of 1024 -/

/-- Position `q` of block `k` among 16384 = 16 · 1024 positions. -/
def blockPos (k : Fin 16) (q : Fin 1024) : Fin 16384 := ⟨1024 * k.val + q.val, by have := k.isLt; have := q.isLt; omega⟩

/-- The sum over the first `n` blocks, in any additive commutative monoid. -/
def blockAcc {M : Type} [AddCommMonoid M] (f : Fin 16384 → M) (n : ℕ) : M :=
  ∑ k ∈ (Finset.univ : Finset (Fin 16)).filter (fun k => k.val < n), ∑ q : Fin 1024, f (blockPos k q)

theorem blockAcc_zero {M : Type} [AddCommMonoid M] (f : Fin 16384 → M) : blockAcc f 0 = 0 := by
  unfold blockAcc
  rw [Finset.filter_false_of_mem (fun k _ => Nat.not_lt_zero _)]
  exact Finset.sum_empty

theorem blockAcc_succ {M : Type} [AddCommMonoid M] (f : Fin 16384 → M) (n : ℕ) (hn : n < 16) :
    blockAcc f (n + 1) = blockAcc f n + ∑ q : Fin 1024, f (blockPos ⟨n, hn⟩ q) := by
  unfold blockAcc
  have hsplit : (Finset.univ : Finset (Fin 16)).filter (fun k => k.val < n + 1)
      = insert (⟨n, hn⟩ : Fin 16) ((Finset.univ : Finset (Fin 16)).filter (fun k => k.val < n)) := by
    ext k
    simp only [Finset.mem_filter, Finset.mem_univ, true_and, Finset.mem_insert, Fin.ext_iff]
    omega
  rw [hsplit, Finset.sum_insert (by simp), add_comm]

/-- All sixteen blocks together are the whole sum. -/
theorem blockAcc_full {M : Type} [AddCommMonoid M] (f : Fin 16384 → M) : blockAcc f 16 = ∑ j : Fin 16384, f j := by
  unfold blockAcc
  rw [Finset.filter_true_of_mem (fun k _ => k.isLt)]
  have e : (∑ j : Fin 16384, f j) = ∑ p : Fin 16 × Fin 1024, f (finProdFinEquiv p) :=
    (Equiv.sum_comp (finProdFinEquiv (m := 16) (n := 1024)) f).symm
  rw [e, Fintype.sum_prod_type]
  refine Finset.sum_congr rfl fun k _ => Finset.sum_congr rfl fun q _ => ?_
  refine congrArg f (Fin.ext ?_)
  show 1024 * k.val + q.val = q.val + 1024 * k.val
  omega

end Cert.Gcn

end
-- ==== Proof.KI.Accum.lean ====
/-
  The accumulator and the output tile in the specification's terms, on the extended reals.

  For row r and feature f, the summand of the gathered row at column j is the adjacency entry (r, j) times the scaled
  feature (j, f). After the point with column block k of a row tile the accumulator holds, at (p, f), the sum of that
  summand over the first k + 1 blocks of 1024 columns: by induction on the point, the first block over the zero tile, every
  later block added to what the point before left (the row tile does not change inside a run of sixteen points). After
  the last column block that is the whole gathered row, and the output tile is the layer's result at the tile's rows.
-/
import proofs.«166288_j34239479283727_1_alg».proof.Proof.KI.Pieces
import proofs.«166288_j34239479283727_1_alg».proof.Proof.KI.Blocks
import proofs.«166288_j34239479283727_1_alg».proof.Proof.Payloads
import proofs.«166288_j34239479283727_1_alg».proof.Proof.Spec

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The summand of the gathered row `r`, feature `f`, at column `j`. -/
def term (c : Dev nD) (r : Fin 16384) (f : Fin 512) (j : Fin 16384) : EReal :=
  argA m c (ix2 r j) * Cert.Gcn.scaled (argD m c) (argX m c) j f

/-! ## Each case as the body's stored value over the point's blocks -/

/-- At the first column block of a row tile the accumulator is the add step over the zero tile. -/
private theorem acc_first (c : Dev nD) (t : Fin cfg0.N) (h0 : t.val % 16 = 0) :
    accAt m c t.val t.isLt = k0_pay2 (F := Ideal) (blkDk m c t) (blkXk m c t) (blkA m c t) (k0_pay1 (F := Ideal)) :=
  (accAt_A m c t h0).trans
    (sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      ((hcond0_0 t).mpr h0) (fun h => by have h' : t.val % 16 = 15 := (hcond0_1 t).mp h; omega) (blkA m c t) (blkXk m c t) (blkDk m c t) (blkXi m c t) (blkDi m c t) (blkW m c t) (blkB m c t))

/-- At a middle column block it is the add step over what the point before left. -/
private theorem acc_mid (c : Dev nD) (t : Fin cfg0.N) (h0 : ¬t.val % 16 = 0) (h1 : ¬t.val % 16 = 15) :
    accAt m c t.val t.isLt
      = k0_pay2 (F := Ideal) (blkDk m c t) (blkXk m c t) (blkA m c t) (accAt m c (t.val - 1) (Nat.lt_of_le_of_lt (Nat.sub_le _ _) t.isLt)) :=
  (accAt_B m c t h0 h1).trans
    (sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      (fun h => h0 ((hcond0_0 t).mp h)) (fun h => h1 ((hcond0_1 t).mp h)) (blkA m c t) (blkXk m c t) (blkDk m c t) (blkXi m c t) (blkDi m c t) (blkW m c t) (blkB m c t) (accAt m c (t.val - 1) (Nat.lt_of_le_of_lt (Nat.sub_le _ _) t.isLt)))

/-- At the last column block likewise. -/
private theorem acc_last (c : Dev nD) (t : Fin cfg0.N) (h0 : ¬t.val % 16 = 0) (h1 : t.val % 16 = 15) :
    accAt m c t.val t.isLt
      = k0_pay2 (F := Ideal) (blkDk m c t) (blkXk m c t) (blkA m c t) (accAt m c (t.val - 1) (Nat.lt_of_le_of_lt (Nat.sub_le _ _) t.isLt)) :=
  (accAt_C m c t h0 h1).trans
    (sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      (fun h => h0 ((hcond0_0 t).mp h)) ((hcond0_1 t).mpr h1) (blkA m c t) (blkXk m c t) (blkDk m c t) (blkXi m c t) (blkDi m c t) (blkW m c t) (blkB m c t) (accAt m c (t.val - 1) (Nat.lt_of_le_of_lt (Nat.sub_le _ _) t.isLt)))

/-- At the last column block the output tile is computed from the accumulator as the add step has just left it. -/
private theorem out_last (c : Dev nD) (t : Fin cfg0.N) (h0 : ¬t.val % 16 = 0) (h1 : t.val % 16 = 15) :
    outAt m c t
      = k0_pay3 (F := Ideal) (blkDi m c t) (blkXi m c t) (blkDi m c t)
          (k0_pay2 (F := Ideal) (blkDk m c t) (blkXk m c t) (blkA m c t) (accAt m c (t.val - 1) (Nat.lt_of_le_of_lt (Nat.sub_le _ _) t.isLt)))
          (blkW m c t) (blkB m c t) :=
  (outAt_C m c t h0 h1).trans
    (out0_C_7_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      (fun h => h0 ((hcond0_0 t).mp h)) ((hcond0_1 t).mpr h1) (blkA m c t) (blkXk m c t) (blkDk m c t) (blkXi m c t) (blkDi m c t) (blkW m c t) (blkB m c t) (accAt m c (t.val - 1) (Nat.lt_of_le_of_lt (Nat.sub_le _ _) t.isLt)))

/-! ## One block's contribution -/

/-- The column block of point `t` is block `t % 16` of the 16384 columns. -/
private theorem blk_lt (t : Fin cfg0.N) : t.val % 16 < 16 := Nat.mod_lt _ (by norm_num)

/-- The add step's sum over the block's 1024 columns is the sum of the row's summand over block `t % 16`. -/
private theorem block_sum (c : Dev nD) (t : Fin cfg0.N) (p : Fin 1024) (f : Fin 512) :
    (∑ q : Fin 1024, blkA m c t (ix2 p q) * (blkDk m c t (ix2 q (0 : Fin 1)) * blkXk m c t (ix2 q f)))
      = ∑ q : Fin 1024, term m c (rowAt t p) f (Cert.Gcn.blockPos ⟨t.val % 16, blk_lt t⟩ q) := by
  refine Finset.sum_congr rfl fun q _ => ?_
  show _ = argA m c (ix2 (rowAt t p) (colAt t q)) * (argD m c (ix1 (colAt t q)) * argX m c (ix2 (colAt t q) f))
  rw [blkA_apply m c t p q, blkDk_apply m c t q, blkXk_apply m c t q f]

/-- The first column block: the accumulator is that block's contribution. -/
private theorem accAt_first (c : Dev nD) (t : Fin cfg0.N) (h0 : t.val % 16 = 0) (p : Fin 1024) (f : Fin 512) :
    accAt m c t.val t.isLt (ix2 p f)
      = ∑ q : Fin 1024, term m c (rowAt t p) f (Cert.Gcn.blockPos ⟨t.val % 16, blk_lt t⟩ q) := by
  refine (congrFun (acc_first m c t h0) (ix2 p f)).trans ?_
  refine (Cert.Gcn.Pay.pay2_apply (blkDk m c t) (blkXk m c t) (blkA m c t) (k0_pay1 (F := Ideal)) p f).trans ?_
  rw [Cert.Gcn.Pay.pay1_apply (ix2 p f), zero_add]
  exact block_sum m c t p f

/-- A later column block: what the point before left plus that block's contribution. -/
private theorem accAt_later (c : Dev nD) (t : Fin cfg0.N) (h0 : ¬t.val % 16 = 0) (p : Fin 1024) (f : Fin 512) :
    accAt m c t.val t.isLt (ix2 p f)
      = accAt m c (t.val - 1) (Nat.lt_of_le_of_lt (Nat.sub_le _ _) t.isLt) (ix2 p f)
        + ∑ q : Fin 1024, term m c (rowAt t p) f (Cert.Gcn.blockPos ⟨t.val % 16, blk_lt t⟩ q) := by
  by_cases h1 : t.val % 16 = 15
  · refine (congrFun (acc_last m c t h0 h1) (ix2 p f)).trans ?_
    refine (Cert.Gcn.Pay.pay2_apply (blkDk m c t) (blkXk m c t) (blkA m c t) (accAt m c (t.val - 1) (Nat.lt_of_le_of_lt (Nat.sub_le _ _) t.isLt)) p f).trans ?_
    exact congrArg (fun s => accAt m c (t.val - 1) (Nat.lt_of_le_of_lt (Nat.sub_le _ _) t.isLt) (ix2 p f) + s) (block_sum m c t p f)
  · refine (congrFun (acc_mid m c t h0 h1) (ix2 p f)).trans ?_
    refine (Cert.Gcn.Pay.pay2_apply (blkDk m c t) (blkXk m c t) (blkA m c t) (accAt m c (t.val - 1) (Nat.lt_of_le_of_lt (Nat.sub_le _ _) t.isLt)) p f).trans ?_
    exact congrArg (fun s => accAt m c (t.val - 1) (Nat.lt_of_le_of_lt (Nat.sub_le _ _) t.isLt) (ix2 p f) + s) (block_sum m c t p f)

/-- After point `n` the accumulator holds the partial sum over the first `n % 16 + 1` column blocks. -/
theorem accAt_eq (c : Dev nD) (n : ℕ) (hn : n < cfg0.N) (p : Fin 1024) (f : Fin 512) :
    accAt m c n hn (ix2 p f) = Cert.Gcn.blockAcc (term m c (rowAt ⟨n, hn⟩ p) f) (n % 16 + 1) := by
  induction n using Nat.strong_induction_on with
  | _ n ih =>
    have hk : n % 16 < 16 := Nat.mod_lt _ (by norm_num)
    rw [Cert.Gcn.blockAcc_succ _ (n % 16) hk]
    by_cases h0 : n % 16 = 0
    · -- the first column block of a row tile: nothing accumulated before it
      have hz : Cert.Gcn.blockAcc (term m c (rowAt ⟨n, hn⟩ p) f) (n % 16) = 0 := by
        rw [h0]; exact Cert.Gcn.blockAcc_zero _
      rw [hz, zero_add]
      exact accAt_first m c ⟨n, hn⟩ h0 p f
    · -- a later column block: the point before is in the same row tile, one block earlier
      have hn' : n - 1 < cfg0.N := Nat.lt_of_le_of_lt (Nat.sub_le _ _) hn
      have hrow : rowAt ⟨n - 1, hn'⟩ p = rowAt ⟨n, hn⟩ p :=
        Fin.ext (by show 1024 * ((n - 1) / 16) + p.val = 1024 * (n / 16) + p.val; omega)
      have hidx : (n - 1) % 16 + 1 = n % 16 := by omega
      have hprev := ih (n - 1) (by omega) hn'
      rw [hrow, hidx] at hprev
      rw [← hprev]
      exact accAt_later m c ⟨n, hn⟩ h0 p f

/-- At the last column block of a row tile the output window's buffer holds the layer's result at the tile's rows. -/
theorem outAt_eq (c : Dev nD) (t : Fin cfg0.N) (h1 : t.val % 16 = 15) (p : Fin 1024) (o : Fin 256) :
    outAt m c t (ix2 p o)
      = Cert.Gcn.resultAt (argA m c) (argD m c) (argX m c) (argW m c) (argB m c) (rowAt t p) o := by
  have h0 : ¬t.val % 16 = 0 := by omega
  refine (congrFun (out_last m c t h0 h1) (ix2 p o)).trans ?_
  refine (Cert.Gcn.Pay.pay3_apply (blkDi m c t) (blkXi m c t) (blkDi m c t)
    (k0_pay2 (F := Ideal) (blkDk m c t) (blkXk m c t) (blkA m c t) (accAt m c (t.val - 1) (Nat.lt_of_le_of_lt (Nat.sub_le _ _) t.isLt)))
    (blkW m c t) (blkB m c t) p o).trans ?_
  -- after the sixteenth block the accumulator is the whole gathered row
  have hacc : ∀ f : Fin 512,
      k0_pay2 (F := Ideal) (blkDk m c t) (blkXk m c t) (blkA m c t) (accAt m c (t.val - 1) (Nat.lt_of_le_of_lt (Nat.sub_le _ _) t.isLt)) (ix2 p f)
        = Cert.Gcn.gathered (argA m c) (argD m c) (argX m c) (rowAt t p) f := by
    intro f
    refine (congrFun (acc_last m c t h0 h1).symm (ix2 p f)).trans ?_
    refine (accAt_eq m c t.val t.isLt p f).trans ?_
    rw [h1]
    exact Cert.Gcn.blockAcc_full _
  show _ = (∑ f : Fin 512, (argD m c (ix1 (rowAt t p))
      * (Cert.Gcn.gathered (argA m c) (argD m c) (argX m c) (rowAt t p) f
          + argD m c (ix1 (rowAt t p)) * argX m c (ix2 (rowAt t p) f))) * argW m c (ix2 o f)) + argB m c (ix1 o)
  rw [blkB_apply m c t o]
  refine congrArg (fun s => s + argB m c (ix1 o)) ?_
  refine Finset.sum_congr rfl fun f _ => ?_
  rw [hacc f, blkDi_apply m c t p, blkXi_apply m c t p f, blkW_apply m c t f o]

end Cert.KernelIdeal.Fr

end
-- ==== Proof.KI.Final.lean ====
/-
  The result array after the run is the layer's function of the five argument arrays.

  The output window is written back at the last column block of each row tile, sixteen times in all; the tile written back
  at row tile i is rows 1024·i … 1024·i + 1023 of the result, and the sixteen tiles cover the array. So the array ends
  holding the result, and the run's post names it; the arguments end unchanged.
-/
import proofs.«166288_j34239479283727_1_alg».proof.Proof.KI.Accum

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The layer's result of the launch contents, as the result array's contents. -/
def resultArr (c : Dev nD) : Buf (Elt Ideal) ((cfg0.win 7).arr.view.loc (c.tc : Thread nD τ)) :=
  Cert.Gcn.result (argA m c) (argD m c) (argX m c) (argW m c) (argB m c)

/-! ## The output window's blocks

  The output window's index map sends point t to block (t / 16, 0): the block of point t is rows
  1024·(t / 16) … 1024·(t / 16) + 1023 and all 256 columns of the result array. -/

/-- The output window moves with the row coordinate alone. -/
private theorem idxOut : ∀ t : Fin cfg0.N, win0_7.index t (0 : Fin 2) = t.val / 16 ∧ win0_7.index t (1 : Fin 2) = 0 :=
  (by decide +kernel : ∀ t : Fin grid0.N, _)

/-- Coordinate (p, o) of point t's block is entry (1024·(t / 16) + p, o) of the array: block index × block size + the
    coordinate, axis by axis. -/
private theorem emb_out (t : Fin cfg0.N) (p : Fin 1024) (o : Fin 256) :
    ((cfg0.win 7).blk t).view.emb (ix2 p o) = ix2 (rowAt t p) o := by
  obtain ⟨e0, e1⟩ := idxOut t
  refine funext fun a => Fin.ext ?_
  match a with
  | ⟨0, _⟩ =>
    show win0_7.index t (0 : Fin 2) * 1024 + 1 * p.val = 1024 * (t.val / 16) + p.val
    omega
  | ⟨1, _⟩ =>
    show win0_7.index t (1 : Fin 2) * 256 + 1 * o.val = o.val
    omega

/-- An index of the array is in point t's block iff each coordinate is in the block's range on its axis. -/
private theorem mem_blk_out (t : Fin cfg0.N) (i : S16384x256.Idx) :
    i ∈ ((cfg0.win 7).blk t).view.set ↔ ∀ a : Fin 2, win0_7.index t a * S1024x256.size a ≤ (i a).val
      ∧ (i a).val < win0_7.index t a * S1024x256.size a + S1024x256.size a := by
  show i ∈ ((View.whole main_v3).slice (win0_7.rect t)).set ↔ _
  rw [View.set_slice_whole, Rect.mem_set_unit]
  exact Iff.rfl

/-- What a write-back writes is the result's block. -/
theorem flushed_eq (c : Dev nD) (t : Fin cfg0.N) (hf : (cfg0.win 7).flush t = true) :
    (dats m 0 c).flushed 7 t = ((cfg0.win 7).blk t).view.read (Elt Ideal) (resultArr m c) := by
  have h1 : t.val % 16 = 15 := (flush0_7 t).mp hf
  show (cfg0.win 7).cut (grid0.coords t) ((dats m 0 c).after 7 t) = _
  rw [after0_7]
  funext y
  obtain ⟨p, o, rfl⟩ : ∃ (p : Fin 1024) (o : Fin 256), y = ix2 p o := ⟨y 0, y 1, eq_ix2 y⟩
  rw [View.read_apply]
  show outAt m c t (ix2 p o) = resultArr m c (((cfg0.win 7).blk t).view.emb (ix2 p o))
  rw [emb_out, outAt_eq m c t h1 p o]
  exact (Cert.Gcn.result_ix2 _ _ _ _ _ _ _).symm

/-- Every index of the result array is in the block of some point that writes back. -/
theorem cover (c : Dev nD) (i : ((cfg0.win 7).arr.view.loc (c.tc : Thread nD τ)).2.ty.Idx) :
    ∃ t : Fin cfg0.N, (cfg0.win 7).flush t = true ∧ i ∈ ((cfg0.win 7).blk t).view.set := by
  have hi0 : (i 0).val < 16384 := (i 0).isLt
  have hi1 : (i 1).val < 256 := (i 1).isLt
  have hN : cfg0.N = 256 := N_0
  -- the last column block of the row tile that holds row i 0
  obtain ⟨t, ht⟩ : ∃ t : Fin cfg0.N, t.val = 16 * ((i 0).val / 1024) + 15 :=
    ⟨⟨16 * ((i 0).val / 1024) + 15, by omega⟩, rfl⟩
  obtain ⟨e0, e1⟩ := idxOut t
  refine ⟨t, (flush0_7 t).mpr (by omega), ?_⟩
  rw [mem_blk_out]
  intro a
  match a with
  | ⟨0, _⟩ =>
    show win0_7.index t (0 : Fin 2) * 1024 ≤ (i 0).val ∧ (i 0).val < win0_7.index t (0 : Fin 2) * 1024 + 1024
    omega
  | ⟨1, _⟩ =>
    show win0_7.index t (1 : Fin 2) * 256 ≤ (i 1).val ∧ (i 1).val < win0_7.index t (1 : Fin 2) * 256 + 256
    omega

/-- The result array ends holding the layer's result. -/
theorem final (c : Dev nD) : (dats m 0 c).arrAt 7 cfg0.N = resultArr m c :=
  (dats m 0 c).arrAt_eq_of_cover 7 (resultArr m c) (fun t hf => flushed_eq m c t hf) (cover c)

/-- The run with its value: the result array at the layer's result of the launch contents, the arguments unchanged. -/
theorem run_value : θ_run defs (onTc (τ := τ) (main (F := Ideal))) ⟨m, fun _ => 0, ρ⟩ (fun r => ∀ c : Dev nD,
      r.2.mem ((c.tc : Thread nD τ).loc main_v3) = Cert.Gcn.result (argA m c) (argD m c) (argX m c) (argW m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 7).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.KernelIdeal.Fr

end
-- ==== Proof.RefValue.lean ====
/-
  The reference's result is the layer's function of the five arrays.

  Read one operation at a time: the scale vector broadcast down the feature columns times the features is `scaled`; the
  host's product of the adjacency with it is the sum over all 16384 columns, `gathered`; adding the scaled features
  and scaling the rows again gives `hidden`; the product with the transposed weight sums over the 512 features with
  the weight read at (output, feature); and the bias is broadcast down the rows.
-/
import proofs.«166288_j34239479283727_1_alg».proof.Proof.Gen.ReferenceIdeal.Read
import proofs.«166288_j34239479283727_1_alg».proof.Proof.Spec

noncomputable section

namespace Cert.Gcn.Ref

open Idealize.ShloMosaic Idealize.ShloMosaic.ValueIdx Cert.ReferenceIdeal Cert.ReferenceIdeal.Read

/-- The scaled features: the scale vector, broadcast twice down the feature columns, times the features. -/
private theorem scaled_at (d : FVec Ideal ⟨1, ![16384]⟩ .f32) (X : FVec Ideal ⟨2, ![16384, 512]⟩ .f32)
    (j : Fin 16384) (c : Fin 512) :
    val_main_v2 (F := Ideal) d X (ix2 j c) = Cert.Gcn.scaled d X j c := by
  rw [val_main_v2_apply, val_main_v1_apply, val_main_v0_apply, Ideal.mulf_def]
  have e : idx_main_v0 (idx_main_v1 (ix2 j c)) = ix1 j := funext fun a => by
    match a with
    | ⟨0, _⟩ => rfl
  rw [e]
  rfl

/-- The adjacency's row against a column of the scaled features: the sum over all 16384 columns. -/
private theorem gathered_at (A : FVec Ideal ⟨2, ![16384, 16384]⟩ .f32) (d : FVec Ideal ⟨1, ![16384]⟩ .f32)
    (X : FVec Ideal ⟨2, ![16384, 512]⟩ .f32) (r : Fin 16384) (c : Fin 512) :
    val_main_v4 (F := Ideal) A d X (ix2 r c) = Cert.Gcn.gathered A d X r c := by
  rw [val_main_v4_apply]
  unfold Cert.Gcn.gathered
  refine Finset.sum_congr rfl fun k _ => ?_
  have el : lidx_main_v4 (ix2 r c) k = ix2 r k := funext fun a => by
    match a with
    | ⟨0, _⟩ => rfl
    | ⟨1, _⟩ => rfl
  have er : ridx_main_v4 (ix2 r c) k = ix2 k c := funext fun a => by
    match a with
    | ⟨0, _⟩ => rfl
    | ⟨1, _⟩ => rfl
  rw [el, er, scaled_at]

/-- The hidden features: the row's scale times the gathered row plus the row's own scaled features. -/
private theorem hidden_at (A : FVec Ideal ⟨2, ![16384, 16384]⟩ .f32) (d : FVec Ideal ⟨1, ![16384]⟩ .f32)
    (X : FVec Ideal ⟨2, ![16384, 512]⟩ .f32) (r : Fin 16384) (c : Fin 512) :
    val_main_v7 (F := Ideal) A d X (ix2 r c) = Cert.Gcn.hidden A d X r c := by
  rw [val_main_v7_apply, val_main_v6_apply, val_main_v3_apply, val_main_v5_apply, Ideal.mulf_def, Ideal.addf_def,
    gathered_at, scaled_at]
  have e : idx_main_v3 (idx_main_v6 (ix2 r c)) = ix1 r := funext fun a => by
    match a with
    | ⟨0, _⟩ => rfl
  rw [e]
  rfl

/-- The transposed weight at (feature, output) is the weight at (output, feature). -/
private theorem weightT_at (W : FVec Ideal ⟨2, ![256, 512]⟩ .f32) (c : Fin 512) (o : Fin 256) :
    val_main_v8 (F := Ideal) W (ix2 c o) = W (ix2 o c) := by
  rw [val_main_v8_apply]
  have e : idx_main_v8 (ix2 c o) = ix2 o c := funext fun a => by
    match a with
    | ⟨0, _⟩ => rfl
    | ⟨1, _⟩ => rfl
  rw [e]

/-- The bias broadcast down the rows reads the bias at the output feature. -/
private theorem bias_at (b : FVec Ideal ⟨1, ![256]⟩ .f32) (r : Fin 16384) (o : Fin 256) :
    val_main_v11 (F := Ideal) b (ix2 r o) = b (ix1 o) := by
  rw [val_main_v11_apply, val_main_v10_apply]
  have e : idx_main_v10 (idx_main_v11 (ix2 r o)) = ix1 o := funext fun a => by
    match a with
    | ⟨0, _⟩ => rfl
  rw [e]

/-- The reference's last stage, at the extended reals, is `Cert.Gcn.result` of its five arguments. -/
theorem reference_eq (A : FVec Ideal ⟨2, ![16384, 16384]⟩ .f32) (d : FVec Ideal ⟨1, ![16384]⟩ .f32)
    (X : FVec Ideal ⟨2, ![16384, 512]⟩ .f32) (W : FVec Ideal ⟨2, ![256, 512]⟩ .f32) (b : FVec Ideal ⟨1, ![256]⟩ .f32) :
    val_main_v12 (F := Ideal) A d X W b = Cert.Gcn.result A d X W b := by
  funext i
  have hi : i = ix2 (⟨(i 0).val, (i 0).isLt⟩ : Fin 16384) (⟨(i 1).val, (i 1).isLt⟩ : Fin 256) := funext fun a => by
    match a with
    | ⟨0, _⟩ => rfl
    | ⟨1, _⟩ => rfl
  generalize (⟨(i 0).val, (i 0).isLt⟩ : Fin 16384) = r at hi
  generalize (⟨(i 1).val, (i 1).isLt⟩ : Fin 256) = o at hi
  subst hi
  rw [Cert.Gcn.result_ix2, val_main_v12_apply, val_main_v9_apply, bias_at, Ideal.addf_def]
  unfold Cert.Gcn.resultAt
  congr 1
  refine Finset.sum_congr rfl fun k _ => ?_
  have el : lidx_main_v9 (ix2 r o) k = ix2 r k := funext fun a => by
    match a with
    | ⟨0, _⟩ => rfl
    | ⟨1, _⟩ => rfl
  have er : ridx_main_v9 (ix2 r o) k = ix2 k o := funext fun a => by
    match a with
    | ⟨0, _⟩ => rfl
    | ⟨1, _⟩ => rfl
  rw [el, er, hidden_at, weightT_at]

end Cert.Gcn.Ref

end
-- ==== Proof.lean ====
/-
  The certificate: a graph-convolution layer computed tile by tile against its plain jnp statement.

  Both programs compute, for scale d, features X, adjacency A, weight W and bias b,
    result r o = Σ_c d r · (Σ_j A r j · (d j · X j c) + d r · X r c) · W o c + b o.
  The kernel walks a 16 × 16 grid of 1024 × 1024 adjacency blocks; along a row tile it adds each block's product with the
  scaled features into an accumulator that starts at zero, and at the last block it adds the row tile's own scaled
  features, scales the rows, multiplies by the transposed weight, adds the bias and writes the tile back. On the extended
  reals the sixteen partial sums are the whole sum (addition is commutative and associative; no finiteness is used), a
  product into a zero accumulator is the plain sum, and changes of float format are the identity, so the two results are
  one function of the arguments.

  The frames: the two kernel programs run to the end with their arguments unchanged by the one-region frame run for
  windows that share an array (the features and the scale column are each read through two windows, at two half shares);
  the reference's frame is its run with the result dropped. The idealization rewrote nothing, so `preserves` is trivial.
-/
import proofs.«166288_j34239479283727_1_alg».proof.Defs
import proofs.«166288_j34239479283727_1_alg».proof.Proof.K.FrameClaim
import proofs.«166288_j34239479283727_1_alg».proof.Proof.KI.FrameClaim
import proofs.«166288_j34239479283727_1_alg».proof.Proof.KI.Final
import proofs.«166288_j34239479283727_1_alg».proof.Proof.RefValue
import proofs.«166288_j34239479283727_1_alg».proof.Proof.Gen.ReferenceIdeal.Run
import proofs.«166288_j34239479283727_1_alg».proof.Proof.Gen.ReferenceIdeal.Read
import proofs.«166288_j34239479283727_1_alg».proof.Proof.Gen.Kernel
import proofs.«166288_j34239479283727_1_alg».proof.Proof.Gen.KernelIdeal
import proofs.«166288_j34239479283727_1_alg».proof.Proof.Gen.ReferenceIdeal
import proofs.«166288_j34239479283727_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel runs to the end and leaves its arguments as they were. -/
theorem frame_kernel : Cert.frame_Kernel := fun m ρ _ => Cert.Kernel.Fr.frame m ρ

/-- So does the idealized kernel. -/
theorem frame_kernelIdeal : Cert.frame_KernelIdeal := fun m ρ _ => Cert.KernelIdeal.Fr.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Run from memories agreeing on the arguments, the idealized kernel's result array and the reference's result both end
    at the layer's function of the arguments. -/
theorem algebraic : Cert.algebraic_KernelIdeal_ReferenceIdeal := by
  intro m ρ m' ρ' _ hagree
  refine ⟨fun c => Cert.Gcn.result (Cert.KernelIdeal.Fr.argA m c) (Cert.KernelIdeal.Fr.argD m c) (Cert.KernelIdeal.Fr.argX m c)
    (Cert.KernelIdeal.Fr.argW m c) (Cert.KernelIdeal.Fr.argB m c), Cert.KernelIdeal.Fr.run_value m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v12_eq (F := Ideal) _ _ _ _ _).trans (Cert.Gcn.Ref.reference_eq _ _ _ _ _)).trans ?_
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
